-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S3200000x6 : Shape := ⟨2, ![3200000, 6]⟩
abbrev S3200000 : Shape := ⟨1, ![3200000]⟩
abbrev S70x32 : Shape := ⟨2, ![70, 32]⟩
abbrev S32 : Shape := ⟨1, ![32]⟩
abbrev S32x6 : Shape := ⟨2, ![32, 6]⟩
abbrev S6 : Shape := ⟨1, ![6]⟩
abbrev S38x64 : Shape := ⟨2, ![38, 64]⟩
abbrev S64 : Shape := ⟨1, ![64]⟩
abbrev S64x32 : Shape := ⟨2, ![64, 32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S3200000x6 : S_.BroadcastsInDim S3200000x6 (![] : Fin 0 → Fin S3200000x6.rank)
  reducesTo_S3200000x6_S_d0_1 : S3200000x6.ReducesTo [0, 1] S_
  bcast_S_S70x32 : S_.BroadcastsInDim S70x32 (![] : Fin 0 → Fin S70x32.rank)
  reducesTo_S70x32_S_d0_1 : S70x32.ReducesTo [0, 1] S_
  bcast_S_S32 : S_.BroadcastsInDim S32 (![] : Fin 0 → Fin S32.rank)
  reducesTo_S32_S_d0 : S32.ReducesTo [0] S_
  bcast_S_S32x6 : S_.BroadcastsInDim S32x6 (![] : Fin 0 → Fin S32x6.rank)
  reducesTo_S32x6_S_d0_1 : S32x6.ReducesTo [0, 1] S_
  bcast_S_S6 : S_.BroadcastsInDim S6 (![] : Fin 0 → Fin S6.rank)
  reducesTo_S6_S_d0 : S6.ReducesTo [0] S_
  bcast_S_S38x64 : S_.BroadcastsInDim S38x64 (![] : Fin 0 → Fin S38x64.rank)
  reducesTo_S38x64_S_d0_1 : S38x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S3200000 : S_.BroadcastsInDim S3200000 (![] : Fin 0 → Fin S3200000.rank)
  reducesTo_S3200000_S_d0 : S3200000.ReducesTo [0] S_

variable [Facts]

def fn_part3 {F : FTy → Type} [FloatOps F] (main_arg2 : IVec S3200000 32) (main_arg3 : IVec S3200000 32) (main_v48 : IVec S_ 1) (main_v50 : IVec S3200000 1) : IVec S_ 1 :=
  let main_c_19 : IVec S_ 32 := constantI S_ 32 100000#32
  let main_v51 : IVec S3200000 32 := broadcastInDim S3200000 ![] bcast_S_S3200000 main_c_19
  let main_v52 : IVec S3200000 1 := cmpi .slt main_arg2 main_v51
  let main_v53 : IVec S3200000 1 := andi main_v50 main_v52
  let main_c_20 : IVec S_ 1 := constantI S_ 1 1#1
  let main_v54 : IVec S_ 1 := (fun x v => Host.reduce IntOp.andi x v reducesTo_S3200000_S_d0 h_S_) main_v53 main_c_20
  let main_v55 : IVec S_ 1 := andi main_v48 main_v54
  let main_c_21 : IVec S_ 32 := constantI S_ 32 0#32
  let main_v56 : IVec S3200000 32 := broadcastInDim S3200000 ![] bcast_S_S3200000 main_c_21
  let main_v57 : IVec S3200000 1 := cmpi .sge main_arg3 main_v56
  let main_c_22 : IVec S_ 32 := constantI S_ 32 100000#32
  let main_v58 : IVec S3200000 32 := broadcastInDim S3200000 ![] bcast_S_S3200000 main_c_22
  let main_v59 : IVec S3200000 1 := cmpi .slt main_arg3 main_v58
  let main_v60 : IVec S3200000 1 := andi main_v57 main_v59
  let main_c_23 : IVec S_ 1 := constantI S_ 1 1#1
  let main_v61 : IVec S_ 1 := (fun x v => Host.reduce IntOp.andi x v reducesTo_S3200000_S_d0 h_S_) main_v60 main_c_23
  let main_v62 : IVec S_ 1 := andi main_v55 main_v61
  main_v62

def fn_part2 {F : FTy → Type} [FloatOps F] (main_arg2 : IVec S3200000 32) (main_arg3 : IVec S3200000 32) (main_arg9 : FVec F S64 .f32) (main_arg10 : FVec F S64x32 .f32) (main_arg11 : FVec F S32 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg10
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_c_18 : IVec S_ 32 := constantI S_ 32 0#32
  let main_v49 : IVec S3200000 32 := broadcastInDim S3200000 ![] bcast_S_S3200000 main_c_18
  let main_v50 : IVec S3200000 1 := cmpi .sge main_arg2 main_v49
  fn_part3 (F := F) main_arg2 main_arg3 main_v48 main_v50

def fn_part1 {F : FTy → Type} [FloatOps F] (main_arg2 : IVec S3200000 32) (main_arg3 : IVec S3200000 32) (main_arg6 : FVec F S32x6 .f32) (main_arg7 : FVec F S6 .f32) (main_arg8 : FVec F S38x64 .f32) (main_arg9 : FVec F S64 .f32) (main_arg10 : FVec F S64x32 .f32) (main_arg11 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x6 .f32 := Host.absf main_arg6
  let main_cst_6 : FVec F S_ .f32 := constant S_ .f32 0x7F800000#32
  let main_v20 : FVec F S32x6 .f32 := broadcastInDim S32x6 ![] bcast_S_S32x6 main_cst_6
  let main_v21 : IVec S32x6 1 := cmpf .olt main_v19 main_v20
  let main_c_7 : IVec S_ 1 := constantI S_ 1 1#1
  let main_v22 : IVec S_ 1 := (fun x v => Host.reduce IntOp.andi x v reducesTo_S32x6_S_d0_1 h_S_) main_v21 main_c_7
  let main_v23 : IVec S_ 1 := andi main_v18 main_v22
  let main_v24 : FVec F S6 .f32 := Host.absf main_arg7
  let main_cst_8 : FVec F S_ .f32 := constant S_ .f32 0x7F800000#32
  let main_v25 : FVec F S6 .f32 := broadcastInDim S6 ![] bcast_S_S6 main_cst_8
  let main_v26 : IVec S6 1 := cmpf .olt main_v24 main_v25
  let main_c_9 : IVec S_ 1 := constantI S_ 1 1#1
  let main_v27 : IVec S_ 1 := (fun x v => Host.reduce IntOp.andi x v reducesTo_S6_S_d0 h_S_) main_v26 main_c_9
  let main_v28 : IVec S_ 1 := andi main_v23 main_v27
  let main_v29 : FVec F S38x64 .f32 := Host.absf main_arg8
  let main_cst_10 : FVec F S_ .f32 := constant S_ .f32 0x7F800000#32
  let main_v30 : FVec F S38x64 .f32 := broadcastInDim S38x64 ![] bcast_S_S38x64 main_cst_10
  let main_v31 : IVec S38x64 1 := cmpf .olt main_v29 main_v30
  let main_c_11 : IVec S_ 1 := constantI S_ 1 1#1
  let main_v32 : IVec S_ 1 := (fun x v => Host.reduce IntOp.andi x v reducesTo_S38x64_S_d0_1 h_S_) main_v31 main_c_11
  let main_v33 : IVec S_ 1 := andi main_v28 main_v32
  fn_part2 (F := F) main_arg2 main_arg3 main_arg9 main_arg10 main_arg11 main_v33

def fn {F : FTy → Type} [FloatOps F] (main_arg0 : FVec F S100000x32 .f32) (main_arg1 : FVec F S3200000x6 .f32) (main_arg2 : IVec S3200000 32) (main_arg3 : IVec S3200000 32) (main_arg4 : FVec F S70x32 .f32) (main_arg5 : FVec F S32 .f32) (main_arg6 : FVec F S32x6 .f32) (main_arg7 : FVec F S6 .f32) (main_arg8 : FVec F S38x64 .f32) (main_arg9 : FVec F S64 .f32) (main_arg10 : FVec F S64x32 .f32) (main_arg11 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S3200000x6 .f32 := Host.absf main_arg1
  let main_cst_0 : FVec F S_ .f32 := constant S_ .f32 0x7F800000#32
  let main_v5 : FVec F S3200000x6 .f32 := broadcastInDim S3200000x6 ![] bcast_S_S3200000x6 main_cst_0
  let main_v6 : IVec S3200000x6 1 := cmpf .olt main_v4 main_v5
  let main_c_1 : IVec S_ 1 := constantI S_ 1 1#1
  let main_v7 : IVec S_ 1 := (fun x v => Host.reduce IntOp.andi x v reducesTo_S3200000x6_S_d0_1 h_S_) main_v6 main_c_1
  let main_v8 : IVec S_ 1 := andi main_v3 main_v7
  let main_v9 : FVec F S70x32 .f32 := Host.absf main_arg4
  let main_cst_2 : FVec F S_ .f32 := constant S_ .f32 0x7F800000#32
  let main_v10 : FVec F S70x32 .f32 := broadcastInDim S70x32 ![] bcast_S_S70x32 main_cst_2
  let main_v11 : IVec S70x32 1 := cmpf .olt main_v9 main_v10
  let main_c_3 : IVec S_ 1 := constantI S_ 1 1#1
  let main_v12 : IVec S_ 1 := (fun x v => Host.reduce IntOp.andi x v reducesTo_S70x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg2 main_arg3 main_arg6 main_arg7 main_arg8 main_arg9 main_arg10 main_arg11 main_v13 main_v16
-- ==== Kernel.lean ====
abbrev S100000x32 : Shape := ⟨2, ![100000, 32]⟩
abbrev S3200000x6 : Shape := ⟨2, ![3200000, 6]⟩
abbrev S3200000 : Shape := ⟨1, ![3200000]⟩
abbrev S70x32 : Shape := ⟨2, ![70, 32]⟩
abbrev S32 : Shape := ⟨1, ![32]⟩
abbrev S32x6 : Shape := ⟨2, ![32, 6]⟩
abbrev S6 : Shape := ⟨1, ![6]⟩
abbrev S38x64 : Shape := ⟨2, ![38, 64]⟩
abbrev S64 : Shape := ⟨1, ![64]⟩
abbrev S64x32 : Shape := ⟨2, ![64, 32]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3200000x32 : Shape := ⟨2, ![3200000, 32]⟩
abbrev S5120x32 : Shape := ⟨2, ![5120, 32]⟩
abbrev S5120x6 : Shape := ⟨2, ![5120, 6]⟩
abbrev S32x32 : Shape := ⟨2, ![32, 32]⟩
abbrev S6x32 : Shape := ⟨2, ![6, 32]⟩
abbrev S1x32 : Shape := ⟨2, ![1, 32]⟩
abbrev S1x6 : Shape := ⟨2, ![1, 6]⟩
abbrev S32x64 : Shape := ⟨2, ![32, 64]⟩
abbrev S5120x64 : Shape := ⟨2, ![5120, 64]⟩
abbrev S6x64 : Shape := ⟨2, ![6, 64]⟩
abbrev S1x64 : Shape := ⟨2, ![1, 64]⟩

abbrev nBuf : Space → Nat
  | .hbm => 64
  | .vmem => 18
  | .smem => 0
  | _ => 0

abbrev bufTy : (tb : Table) → Fin (tcTables nBuf tb) → BufTy
  | .hbm, ⟨0, _⟩ => ⟨S100000x32, .f32⟩
  | .hbm, ⟨1, _⟩ => ⟨S3200000x6, .f32⟩
  | .hbm, ⟨2, _⟩ => ⟨S3200000, .i32⟩
  | .hbm, ⟨3, _⟩ => ⟨S3200000, .i32⟩
  | .hbm, ⟨4, _⟩ => ⟨S70x32, .f32⟩
  | .hbm, ⟨5, _⟩ => ⟨S32, .f32⟩
  | .hbm, ⟨6, _⟩ => ⟨S32x6, .f32⟩
  | .hbm, ⟨7, _⟩ => ⟨S6, .f32⟩
  | .hbm, ⟨8, _⟩ => ⟨S38x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S1, .i32⟩
  | .hbm, ⟨21, _⟩ => ⟨S_, .i32⟩
  | .hbm, ⟨22, _⟩ => ⟨S3200000x1, .i32⟩
  | .hbm, ⟨23, _⟩ => ⟨S3200000x1, .i1⟩
  | .hbm, ⟨24, _⟩ => ⟨S1x1, .i32⟩
  | .hbm, ⟨25, _⟩ => ⟨S3200000x1, .i32⟩
  | .hbm, ⟨26, _⟩ => ⟨S3200000x1, .i1⟩
  | .hbm, ⟨27, _⟩ => ⟨S3200000x1, .i1⟩
  | .hbm, ⟨28, _⟩ => ⟨S_, .i1⟩
  | .hbm, ⟨29, _⟩ => ⟨S3200000, .i1⟩
  | .hbm, ⟨30, _⟩ => ⟨S3200000x32, .f32⟩
  | .hbm, ⟨31, _⟩ => ⟨S3200000x32, .i1⟩
  | .hbm, ⟨32, _⟩ => ⟨S_, .f32⟩
  | .hbm, ⟨33, _⟩ => ⟨S3200000x32, .f32⟩
  | .hbm, ⟨34, _⟩ => ⟨S3200000x32, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S1, .i32⟩
  | .hbm, ⟨44, _⟩ => ⟨S_, .i32⟩
  | .hbm, ⟨45, _⟩ => ⟨S3200000x1, .i32⟩
  | .hbm, ⟨46, _⟩ => ⟨S3200000x1, .i1⟩
  | .hbm, ⟨47, _⟩ => ⟨S1x1, .i32⟩
  | .hbm, ⟨48, _⟩ => ⟨S3200000x1, .i32⟩
  | .hbm, ⟨49, _⟩ => ⟨S3200000x1, .i1⟩
  | .hbm, ⟨50, _⟩ => ⟨S3200000x1, .i1⟩
  | .hbm, ⟨51, _⟩ => ⟨S_, .i1⟩
  | .hbm, ⟨52, _⟩ => ⟨S3200000, .i1⟩
  | .hbm, ⟨53, _⟩ => ⟨S3200000x32, .f32⟩
  | .hbm, ⟨54, _⟩ => ⟨S3200000x32, .i1⟩
  | .hbm, ⟨55, _⟩ => ⟨S_, .f32⟩
  | .hbm, ⟨56, _⟩ => ⟨S3200000x32, .f32⟩
  | .hbm, ⟨57, _⟩ => ⟨S3200000x32, .f32⟩
  | .hbm, ⟨58, _⟩ => ⟨S3200000x6, .f32⟩
  | .hbm, ⟨59, _⟩ => ⟨S3200000x32, .f32⟩
  | .hbm, ⟨60, _⟩ => ⟨S_, .f32⟩
  | .hbm, ⟨61, _⟩ => ⟨S100000x32, .f32⟩
  | .hbm, ⟨62, _⟩ => ⟨S3200000x1, .i32⟩
  | .hbm, ⟨63, _⟩ => ⟨S100000x32, .f32⟩
  | .local _ .vmem, ⟨0, _⟩ => ⟨S5120x32, .f32⟩
  | .local _ .vmem, ⟨1, _⟩ => ⟨S5120x32, .f32⟩
  | .local _ .vmem, ⟨2, _⟩ => ⟨S5120x32, .f32⟩
  | .local _ .vmem, ⟨3, _⟩ => ⟨S5120x32, .f32⟩
  | .local _ .vmem, ⟨4, _⟩ => ⟨S5120x6, .f32⟩
  | .local _ .vmem, ⟨5, _⟩ => ⟨S5120x6, .f32⟩
  | .local _ .vmem, ⟨6, _⟩ => ⟨S70x32, .f32⟩
  | .local _ .vmem, ⟨7, _⟩ => ⟨S32, .f32⟩
  | .local _ .vmem, ⟨8, _⟩ => ⟨S32x6, .f32⟩
  | .local _ .vmem, ⟨9, _⟩ => ⟨S6, .f32⟩
  | .local _ .vmem, ⟨10, _⟩ => ⟨S38x64, .f32⟩
  | .local _ .vmem, ⟨11, _⟩ => ⟨S64, .f32⟩
  | .local _ .vmem, ⟨12, _⟩ => ⟨S64x32, .f32⟩
  | .local _ .vmem, ⟨13, _⟩ => ⟨S32, .f32⟩
  | .local _ .vmem, ⟨14, _⟩ => ⟨S5120x6, .f32⟩
  | .local _ .vmem, ⟨15, _⟩ => ⟨S5120x6, .f32⟩
  | .local _ .vmem, ⟨16, _⟩ => ⟨S5120x32, .f32⟩
  | .local _ .vmem, ⟨17, _⟩ => ⟨S5120x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v1 : Ref sig .tc := ⟨.hbm, 57, rfl⟩
abbrev main_v2_0 : Ref sig .tc := ⟨.hbm, 58, rfl⟩
abbrev main_v2_1 : Ref sig .tc := ⟨.hbm, 59, rfl⟩
abbrev main_cst : Ref sig .tc := ⟨.hbm, 60, rfl⟩
abbrev main_v3 : Ref sig .tc := ⟨.hbm, 61, rfl⟩
abbrev main_v4 : Ref sig .tc := ⟨.hbm, 62, rfl⟩
abbrev main_v5 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S70x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S38x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5120x6 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5120x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x32_0 : S3200000.BroadcastsInDim S3200000x32 (![0] : Fin 1 → Fin S3200000x32.rank)
  bcast_S_S3200000x32 : S_.BroadcastsInDim S3200000x32 (![] : Fin 0 → Fin S3200000x32.rank)
  inb_S5120x32_S5120x32_0_0 : ∀ a, (![0, 0] : Fin 2 → Nat) a + S5120x32.size a ≤ S5120x32.size a
  h_S5120x32 : 0 < S5120x32.numel
  shapeCasts_S5120x32_S5120x32 : S5120x32.ShapeCasts S5120x32
  inb_S5120x6_S5120x6_0_0 : ∀ a, (![0, 0] : Fin 2 → Nat) a + S5120x6.size a ≤ S5120x6.size a
  h_S5120x6 : 0 < S5120x6.numel
  inb_S70x32_S70x32_0_0 : ∀ a, (![0, 0] : Fin 2 → Nat) a + S70x32.size a ≤ S70x32.size a
  h_S70x32 : 0 < S70x32.numel
  slices_S70x32_o0_0_S32x32 : S70x32.Slices ![0, 0] S32x32
  slices_S70x32_o32_0_S32x32 : S70x32.Slices ![32, 0] S32x32
  slices_S70x32_o64_0_S6x32 : S70x32.Slices ![64, 0] S6x32
  inb_S32_S32_0 : ∀ a, (![0] : Fin 1 → Nat) a + S32.size a ≤ S32.size a
  h_S32 : 0 < S32.numel
  shapeCasts_S32_S1x32 : S32.ShapeCasts S1x32
  broadcasts_S1x32_S5120x32 : S1x32.Broadcasts S5120x32
  inb_S32x6_S32x6_0_0 : ∀ a, (![0, 0] : Fin 2 → Nat) a + S32x6.size a ≤ S32x6.size a
  h_S32x6 : 0 < S32x6.numel
  inb_S6_S6_0 : ∀ a, (![0] : Fin 1 → Nat) a + S6.size a ≤ S6.size a
  h_S6 : 0 < S6.numel
  shapeCasts_S6_S1x6 : S6.ShapeCasts S1x6
  broadcasts_S1x6_S5120x6 : S1x6.Broadcasts S5120x6
  inb_S38x64_S38x64_0_0 : ∀ a, (![0, 0] : Fin 2 → Nat) a + S38x64.size a ≤ S38x64.size a
  h_S38x64 : 0 < S38x64.numel
  slices_S38x64_o0_0_S32x64 : S38x64.Slices ![0, 0] S32x64
  slices_S38x64_o32_0_S6x64 : S38x64.Slices ![32, 0] S6x64
  inb_S64_S64_0 : ∀ a, (![0] : Fin 1 → Nat) a + S64.size a ≤ S64.size a
  h_S64 : 0 < S64.numel
  shapeCasts_S64_S1x64 : S64.ShapeCasts S1x64
  broadcasts_S1x64_S5120x64 : S1x64.Broadcasts S5120x64
  inb_S64x32_S64x32_0_0 : ∀ a, (![0, 0] : Fin 2 → Nat) a + S64x32.size a ≤ S64x32.size a
  h_S64x32 : 0 < S64x32.numel
  bcast_S_S100000x32 : S_.BroadcastsInDim S100000x32 (![] : Fin 0 → Fin S100000x32.rank)
  gather_S100000x32_S3200000x1_S3200000x32_1_0_n_n_0_1_132_wf : GatherDims.WF S100000x32 S3200000x1 S3200000x32 [1] [0] [] [0] [] 1 ![1, 32]
  dot_S5120x32_S32x32_S5120x32_1_0_0_1_n_n_wf : DotDims.WF S5120x32 S32x32 S5120x32 [1] [0] [0] [1] [] []
  dot_S5120x6_S6x32_S5120x32_1_0_0_1_n_n_wf : DotDims.WF S5120x6 S6x32 S5120x32 [1] [0] [0] [1] [] []
  dot_S5120x32_S32x6_S5120x6_1_0_0_1_n_n_wf : DotDims.WF S5120x32 S32x6 S5120x6 [1] [0] [0] [1] [] []
  dot_S5120x32_S32x64_S5120x64_1_0_0_1_n_n_wf : DotDims.WF S5120x32 S32x64 S5120x64 [1] [0] [0] [1] [] []
  dot_S5120x6_S6x64_S5120x64_1_0_0_1_n_n_wf : DotDims.WF S5120x6 S6x64 S5120x64 [1] [0] [0] [1] [] []
  dot_S5120x64_S64x32_S5120x32_1_0_0_1_n_n_wf : DotDims.WF S5120x64 S64x32 S5120x32 [1] [0] [0] [1] [] []
  scatter_S100000x32_S3200000x1_S3200000x32_1_0_0_1_wf : ScatterDims.WF S100000x32 S3200000x1 S3200000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x32.size a ≤ S3200000x32.size a
  hwx0_0 : ∀ i : grid0.Coords, EltTy.bits .f32 = 32 ∨ (Rect.block (s := S3200000x32) S5120x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x32.size a ≤ S3200000x32.size a
  hwx0_1 : ∀ i : grid0.Coords, EltTy.bits .f32 = 32 ∨ (Rect.block (s := S3200000x32) S5120x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5120x6.size a ≤ S3200000x6.size a
  hwx0_2 : ∀ i : grid0.Coords, EltTy.bits .f32 = 32 ∨ (Rect.block (s := S3200000x6) S5120x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S70x32.size a ≤ S70x32.size a
  hwx0_3 : ∀ i : grid0.Coords, EltTy.bits .f32 = 32 ∨ (Rect.block (s := S70x32) S70x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x6.size a ≤ S32x6.size a
  hwx0_5 : ∀ i : grid0.Coords, EltTy.bits .f32 = 32 ∨ (Rect.block (s := S32x6) S32x6.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6.size a ≤ S6.size a
  hwx0_6 : ∀ i : grid0.Coords, EltTy.bits .f32 = 32 ∨ (Rect.block (s := S6) S6.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S38x64.size a ≤ S38x64.size a
  hwx0_7 : ∀ i : grid0.Coords, EltTy.bits .f32 = 32 ∨ (Rect.block (s := S38x64) S38x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x32.size a ≤ S64x32.size a
  hwx0_9 : ∀ i : grid0.Coords, EltTy.bits .f32 = 32 ∨ (Rect.block (s := S64x32) S64x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32.size a ≤ S32.size a
  hwx0_10 : ∀ i : grid0.Coords, EltTy.bits .f32 = 32 ∨ (Rect.block (s := S32) S32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5120x6.size a ≤ S3200000x6.size a
  hwx0_11 : ∀ i : grid0.Coords, EltTy.bits .f32 = 32 ∨ (Rect.block (s := S3200000x6) S5120x6.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5120x32.size a ≤ S3200000x32.size a
  hwx0_12 : ∀ i : grid0.Coords, EltTy.bits .f32 = 32 ∨ (Rect.block (s := S3200000x32) S5120x32.size (cc0_transform_12 i) (hinb0_12 i)).WholeWords (EltTy.packing .f32)

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S5120x32_S32x32_S5120x32_1_0_0_1_n_n : DotDims S5120x32 S32x32 S5120x32 where
  lhsContracting := [1]
  rhsContracting := [0]
  lhsNonContracting := [0]
  rhsNonContracting := [1]
  lhsBatch := []
  rhsBatch := []
  wf := dot_S5120x32_S32x32_S5120x32_1_0_0_1_n_n_wf
def dot_S5120x6_S6x32_S5120x32_1_0_0_1_n_n : DotDims S5120x6 S6x32 S5120x32 where
  lhsContracting := [1]
  rhsContracting := [0]
  lhsNonContracting := [0]
  rhsNonContracting := [1]
  lhsBatch := []
  rhsBatch := []
  wf := dot_S5120x6_S6x32_S5120x32_1_0_0_1_n_n_wf
def dot_S5120x32_S32x6_S5120x6_1_0_0_1_n_n : DotDims S5120x32 S32x6 S5120x6 where
  lhsContracting := [1]
  rhsContracting := [0]
  lhsNonContracting := [0]
  rhsNonContracting := [1]
  lhsBatch := []
  rhsBatch := []
  wf := dot_S5120x32_S32x6_S5120x6_1_0_0_1_n_n_wf
def dot_S5120x32_S32x64_S5120x64_1_0_0_1_n_n : DotDims S5120x32 S32x64 S5120x64 where
  lhsContracting := [1]
  rhsContracting := [0]
  lhsNonContracting := [0]
  rhsNonContracting := [1]
  lhsBatch := []
  rhsBatch := []
  wf := dot_S5120x32_S32x64_S5120x64_1_0_0_1_n_n_wf
def dot_S5120x6_S6x64_S5120x64_1_0_0_1_n_n : DotDims S5120x6 S6x64 S5120x64 where
  lhsContracting := [1]
  rhsContracting := [0]
  lhsNonContracting := [0]
  rhsNonContracting := [1]
  lhsBatch := []
  rhsBatch := []
  wf := dot_S5120x6_S6x64_S5120x64_1_0_0_1_n_n_wf
def dot_S5120x64_S64x32_S5120x32_1_0_0_1_n_n : DotDims S5120x64 S64x32 S5120x32 where
  lhsContracting := [1]
  rhsContracting := [0]
  lhsNonContracting := [0]
  rhsNonContracting := [1]
  lhsBatch := []
  rhsBatch := []
  wf := dot_S5120x64_S64x32_S5120x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

abbrev win0_0 : Pipeline.Window sig grid0 :=
  Pipeline.Window.ofSpec (Memref.whole main_v0) S5120x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5120x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5120x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S70x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32x6.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S6.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S38x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S64x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2_0) S5120x6.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v2_1) S5120x32.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S100000x32 : Shape := ⟨2, ![100000, 32]⟩
abbrev S3200000x6 : Shape := ⟨2, ![3200000, 6]⟩
abbrev S3200000 : Shape := ⟨1, ![3200000]⟩
abbrev S70x32 : Shape := ⟨2, ![70, 32]⟩
abbrev S32 : Shape := ⟨1, ![32]⟩
abbrev S32x6 : Shape := ⟨2, ![32, 6]⟩
abbrev S6 : Shape := ⟨1, ![6]⟩
abbrev S38x64 : Shape := ⟨2, ![38, 64]⟩
abbrev S64 : Shape := ⟨1, ![64]⟩
abbrev S64x32 : Shape := ⟨2, ![64, 32]⟩
abbrev S_ : Shape := ⟨0, ![]⟩
abbrev S3200000x1 : Shape := ⟨2, ![3200000, 1]⟩
abbrev S3200000x32 : Shape := ⟨2, ![3200000, 32]⟩
abbrev S3200000x70 : Shape := ⟨2, ![3200000, 70]⟩
abbrev S1x32 : Shape := ⟨2, ![1, 32]⟩
abbrev S1x6 : Shape := ⟨2, ![1, 6]⟩
abbrev S3200000x38 : Shape := ⟨2, ![3200000, 38]⟩
abbrev S3200000x64 : Shape := ⟨2, ![3200000, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S3200000x6, .f32⟩
  | .hbm, ⟨2, _⟩ => ⟨S3200000, .i32⟩
  | .hbm, ⟨3, _⟩ => ⟨S3200000, .i32⟩
  | .hbm, ⟨4, _⟩ => ⟨S70x32, .f32⟩
  | .hbm, ⟨5, _⟩ => ⟨S32, .f32⟩
  | .hbm, ⟨6, _⟩ => ⟨S32x6, .f32⟩
  | .hbm, ⟨7, _⟩ => ⟨S6, .f32⟩
  | .hbm, ⟨8, _⟩ => ⟨S38x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x32, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000x32, .f32⟩
  | .hbm, ⟨30, _⟩ => ⟨S3200000x70, .f32⟩
  | .hbm, ⟨31, _⟩ => ⟨S3200000x32, .f32⟩
  | .hbm, ⟨32, _⟩ => ⟨S1x32, .f32⟩
  | .hbm, ⟨33, _⟩ => ⟨S3200000x32, .f32⟩
  | .hbm, ⟨34, _⟩ => ⟨S3200000x32, .f32⟩
  | .hbm, ⟨35, _⟩ => ⟨S_, .f32⟩
  | .hbm, ⟨36, _⟩ => ⟨S3200000x32, .f32⟩
  | .hbm, ⟨37, _⟩ => ⟨S3200000x32, .f32⟩
  | .hbm, ⟨38, _⟩ => ⟨S3200000x6, .f32⟩
  | .hbm, ⟨39, _⟩ => ⟨S1x6, .f32⟩
  | .hbm, ⟨40, _⟩ => ⟨S3200000x6, .f32⟩
  | .hbm, ⟨41, _⟩ => ⟨S3200000x6, .f32⟩
  | .hbm, ⟨42, _⟩ => ⟨S_, .f32⟩
  | .hbm, ⟨43, _⟩ => ⟨S3200000x6, .f32⟩
  | .hbm, ⟨44, _⟩ => ⟨S3200000x6, .f32⟩
  | .hbm, ⟨45, _⟩ => ⟨S3200000x38, .f32⟩
  | .hbm, ⟨46, _⟩ => ⟨S3200000x64, .f32⟩
  | .hbm, ⟨47, _⟩ => ⟨S1x64, .f32⟩
  | .hbm, ⟨48, _⟩ => ⟨S3200000x64, .f32⟩
  | .hbm, ⟨49, _⟩ => ⟨S3200000x64, .f32⟩
  | .hbm, ⟨50, _⟩ => ⟨S_, .f32⟩
  | .hbm, ⟨51, _⟩ => ⟨S3200000x64, .f32⟩
  | .hbm, ⟨52, _⟩ => ⟨S3200000x64, .f32⟩
  | .hbm, ⟨53, _⟩ => ⟨S3200000x32, .f32⟩
  | .hbm, ⟨54, _⟩ => ⟨S1x32, .f32⟩
  | .hbm, ⟨55, _⟩ => ⟨S3200000x32, .f32⟩
  | .hbm, ⟨56, _⟩ => ⟨S3200000x32, .f32⟩
  | .hbm, ⟨57, _⟩ => ⟨S_, .f32⟩
  | .hbm, ⟨58, _⟩ => ⟨S3200000x32, .f32⟩
  | .hbm, ⟨59, _⟩ => ⟨S3200000x32, .f32⟩
  | .hbm, ⟨60, _⟩ => ⟨S_, .f32⟩
  | .hbm, ⟨61, _⟩ => ⟨S100000x32, .f32⟩
  | .hbm, ⟨62, _⟩ => ⟨S3200000x1, .i32⟩
  | .hbm, ⟨63, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_cst : Ref sig .tc := ⟨.hbm, 42, rfl⟩
abbrev main_call1_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call2_cst : Ref sig .tc := ⟨.hbm, 50, rfl⟩
abbrev main_call2_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call3_cst : Ref sig .tc := ⟨.hbm, 57, rfl⟩
abbrev main_call3_v0 : Ref sig .tc := ⟨.hbm, 58, rfl⟩
abbrev main_v35 : Ref sig .tc := ⟨.hbm, 59, rfl⟩
abbrev main_cst : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x32_S3200000x32_S3200000x6_S3200000x70_d1 : Shape.Concatenates [S3200000x32, S3200000x32, S3200000x6] S3200000x70 1
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  bcast_S6_S1x6_1 : S6.BroadcastsInDim S1x6 (![1] : Fin 1 → Fin S1x6.rank)
  bcast_S1x6_S3200000x6_0_1 : S1x6.BroadcastsInDim S3200000x6 (![0, 1] : Fin 2 → Fin S3200000x6.rank)
  bcast_S_S3200000x6 : S_.BroadcastsInDim S3200000x6 (![] : Fin 0 → Fin S3200000x6.rank)
  concatenates_S3200000x32_S3200000x6_S3200000x38_d1 : Shape.Concatenates [S3200000x32, S3200000x6] S3200000x38 1
  bcast_S64_S1x64_1 : S64.BroadcastsInDim S1x64 (![1] : Fin 1 → Fin S1x64.rank)
  bcast_S1x64_S3200000x64_0_1 : S1x64.BroadcastsInDim S3200000x64 (![0, 1] : Fin 2 → Fin S3200000x64.rank)
  bcast_S_S3200000x64 : S_.BroadcastsInDim S3200000x64 (![] : Fin 0 → Fin S3200000x64.rank)
  bcast_S_S100000x32 : S_.BroadcastsInDim S100000x32 (![] : Fin 0 → Fin S100000x32.rank)
  gather_S100000x32_S3200000x1_S3200000x32_1_0_n_n_0_1_132_wf : GatherDims.WF S100000x32 S3200000x1 S3200000x32 [1] [0] [] [0] [] 1 ![1, 32]
  dot_S3200000x70_S70x32_S3200000x32_1_0_0_1_n_n_wf : DotDims.WF S3200000x70 S70x32 S3200000x32 [1] [0] [0] [1] [] []
  dot_S3200000x32_S32x6_S3200000x6_1_0_0_1_n_n_wf : DotDims.WF S3200000x32 S32x6 S3200000x6 [1] [0] [0] [1] [] []
  dot_S3200000x38_S38x64_S3200000x64_1_0_0_1_n_n_wf : DotDims.WF S3200000x38 S38x64 S3200000x64 [1] [0] [0] [1] [] []
  dot_S3200000x64_S64x32_S3200000x32_1_0_0_1_n_n_wf : DotDims.WF S3200000x64 S64x32 S3200000x32 [1] [0] [0] [1] [] []
  scatter_S100000x32_S3200000x1_S3200000x32_1_0_0_1_wf : ScatterDims.WF S100000x32 S3200000x1 S3200000x32 [1] [0] [0] 1

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S3200000x70_S70x32_S3200000x32_1_0_0_1_n_n : DotDims S3200000x70 S70x32 S3200000x32 where
  lhsContracting := [1]
  rhsContracting := [0]
  lhsNonContracting := [0]
  rhsNonContracting := [1]
  lhsBatch := []
  rhsBatch := []
  wf := dot_S3200000x70_S70x32_S3200000x32_1_0_0_1_n_n_wf
def dot_S3200000x32_S32x6_S3200000x6_1_0_0_1_n_n : DotDims S3200000x32 S32x6 S3200000x6 where
  lhsContracting := [1]
  rhsContracting := [0]
  lhsNonContracting := [0]
  rhsNonContracting := [1]
  lhsBatch := []
  rhsBatch := []
  wf := dot_S3200000x32_S32x6_S3200000x6_1_0_0_1_n_n_wf
def dot_S3200000x38_S38x64_S3200000x64_1_0_0_1_n_n : DotDims S3200000x38 S38x64 S3200000x64 where
  lhsContracting := [1]
  rhsContracting := [0]
  lhsNonContracting := [0]
  rhsNonContracting := [1]
  lhsBatch := []
  rhsBatch := []
  wf := dot_S3200000x38_S38x64_S3200000x64_1_0_0_1_n_n_wf
def dot_S3200000x64_S64x32_S3200000x32_1_0_0_1_n_n : DotDims S3200000x64 S64x32 S3200000x32 where
  lhsContracting := [1]
  rhsContracting := [0]
  lhsNonContracting := [0]
  rhsNonContracting := [1]
  lhsBatch := []
  rhsBatch := []
  wf := dot_S3200000x64_S64x32_S3200000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

class Facts : Prop extends Facts₀ where

variable [Facts]
-- ==== Proof.Spec.lean ====
/-
  The arithmetic of one message-passing step, one edge at a time, on the extended reals.

  For an edge `e` with destination features `xd`, source features `xs` (32 each) and edge features `xe` (6):
    hidden  h  = relu (xd · W₁[0:32] + xs · W₁[32:64] + xe · W₁[64:70] + b₁)          (32 wide)
    message em = relu (h · W₂ + b₂)                                                    (6 wide)
    hidden  g  = relu (xd · V₁[0:32] + em · V₁[32:38] + c₁)                            (64 wide)
    message nm = relu (g · V₂ + c₂)                                                    (32 wide)
  A product with a row block of a weight matrix is a sum over that block's rows; a product with the whole matrix of
  the concatenated input is the sum over all 70 (or 38) rows, which splits into the blocks' sums because addition of
  extended reals is commutative and associative (no finiteness is needed for that).
-/
import Idealize.ShloMosaic.PureOps.Ideal
import Idealize.ShloMosaic.Lib.ValueIdx
import Mathlib.Algebra.BigOperators.Fin

noncomputable section

namespace Cert.Mpn

open Idealize.ShloMosaic Idealize.ShloMosaic.ValueIdx

/-- Row `a` of the first 32-row block of a 70-row matrix. -/
abbrev r70a (a : Fin 32) : Fin 70 := ⟨a.val, by omega⟩
/-- Row `a` of the second 32-row block (rows 32 to 63). -/
abbrev r70b (a : Fin 32) : Fin 70 := ⟨32 + a.val, by omega⟩
/-- Row `a` of the last 6-row block (rows 64 to 69). -/
abbrev r70c (a : Fin 6) : Fin 70 := ⟨64 + a.val, by omega⟩
/-- Row `a` of the first 32-row block of a 38-row matrix. -/
abbrev r38a (a : Fin 32) : Fin 38 := ⟨a.val, by omega⟩
/-- Row `a` of the last 6-row block (rows 32 to 37). -/
abbrev r38b (a : Fin 6) : Fin 38 := ⟨32 + a.val, by omega⟩

/-- The edge encoder's hidden layer at unit `k`: the three block products summed left to right, the bias, the relu. -/
def edgeHidden (xd xs : Fin 32 → EReal) (xe : Fin 6 → EReal) (W : Fin 70 → Fin 32 → EReal) (b : Fin 32 → EReal)
    (k : Fin 32) : EReal :=
  max ((((∑ a : Fin 32, xd a * W (r70a a) k) + (∑ a : Fin 32, xs a * W (r70b a) k)) + (∑ a : Fin 6, xe a * W (r70c a) k)) + b k) 0

/-- The edge message at unit `q`. -/
def edgeRow (xd xs : Fin 32 → EReal) (xe : Fin 6 → EReal) (W : Fin 70 → Fin 32 → EReal) (b : Fin 32 → EReal)
    (W2 : Fin 32 → Fin 6 → EReal) (b2 : Fin 6 → EReal) (q : Fin 6) : EReal :=
  max ((∑ k : Fin 32, edgeHidden xd xs xe W b k * W2 k q) + b2 q) 0

/-- The node encoder's hidden layer at unit `k`, from the destination features and the edge message. -/
def nodeHidden (xd : Fin 32 → EReal) (em : Fin 6 → EReal) (V : Fin 38 → Fin 64 → EReal) (c : Fin 64 → EReal)
    (k : Fin 64) : EReal :=
  max (((∑ a : Fin 32, xd a * V (r38a a) k) + (∑ a : Fin 6, em a * V (r38b a) k)) + c k) 0

/-- The node message at unit `q`. -/
def nodeRow (xd : Fin 32 → EReal) (em : Fin 6 → EReal) (V : Fin 38 → Fin 64 → EReal) (c : Fin 64 → EReal)
    (V2 : Fin 64 → Fin 32 → EReal) (c2 : Fin 32 → EReal) (q : Fin 32) : EReal :=
  max ((∑ k : Fin 64, nodeHidden xd em V c k * V2 k q) + c2 q) 0

/-- A sum over 70 rows is the sum over rows 0–31, plus that over rows 32–63, plus that over rows 64–69. -/
theorem sum70 (f : Fin 70 → EReal) :
    ∑ k : Fin 70, f k = ((∑ a : Fin 32, f (r70a a)) + (∑ a : Fin 32, f (r70b a))) + (∑ a : Fin 6, f (r70c a)) := by
  have h1 : ∑ k : Fin 70, f k = (∑ i : Fin 64, f (Fin.castAdd 6 i)) + ∑ i : Fin 6, f (Fin.natAdd 64 i) :=
    Fin.sum_univ_add (M := EReal) (a := 64) (b := 6) f
  have h2 : (∑ i : Fin 64, f (Fin.castAdd 6 i))
      = (∑ i : Fin 32, f (Fin.castAdd 6 (Fin.castAdd 32 i))) + ∑ i : Fin 32, f (Fin.castAdd 6 (Fin.natAdd 32 i)) :=
    Fin.sum_univ_add (M := EReal) (a := 32) (b := 32) fun i => f (Fin.castAdd 6 i)
  rw [h1, h2]
  rfl

/-- A sum over 38 rows is the sum over rows 0–31 plus that over rows 32–37. -/
theorem sum38 (f : Fin 38 → EReal) :
    ∑ k : Fin 38, f k = (∑ a : Fin 32, f (r38a a)) + (∑ a : Fin 6, f (r38b a)) :=
  Fin.sum_univ_add (M := EReal) (a := 32) (b := 6) f

/-! ## The two message arrays, index by index -/

/-- The edge messages [E, 6] of gathered destination rows `XD`, gathered source rows `XS` and edge features `XE`. -/
def edgeArr (XD XS : (⟨2, ![3200000, 32]⟩ : Shape).Idx → EReal) (XE : (⟨2, ![3200000, 6]⟩ : Shape).Idx → EReal)
    (W : (⟨2, ![70, 32]⟩ : Shape).Idx → EReal) (b : (⟨1, ![32]⟩ : Shape).Idx → EReal)
    (W2 : (⟨2, ![32, 6]⟩ : Shape).Idx → EReal) (b2 : (⟨1, ![6]⟩ : Shape).Idx → EReal) :
    (⟨2, ![3200000, 6]⟩ : Shape).Idx → EReal := fun i =>
  edgeRow (fun a => XD (ix2 (i 0) a)) (fun a => XS (ix2 (i 0) a)) (fun a => XE (ix2 (i 0) a))
    (fun a k => W (ix2 a k)) (fun k => b (ix1 k)) (fun k q => W2 (ix2 k q)) (fun q => b2 (ix1 q)) (i 1)

/-- The node messages [E, 32] of gathered destination rows `XD` and edge messages `EM`. -/
def nodeArr (XD : (⟨2, ![3200000, 32]⟩ : Shape).Idx → EReal) (EM : (⟨2, ![3200000, 6]⟩ : Shape).Idx → EReal)
    (V : (⟨2, ![38, 64]⟩ : Shape).Idx → EReal) (c : (⟨1, ![64]⟩ : Shape).Idx → EReal)
    (V2 : (⟨2, ![64, 32]⟩ : Shape).Idx → EReal) (c2 : (⟨1, ![32]⟩ : Shape).Idx → EReal) :
    (⟨2, ![3200000, 32]⟩ : Shape).Idx → EReal := fun i =>
  nodeRow (fun a => XD (ix2 (i 0) a)) (fun a => EM (ix2 (i 0) a))
    (fun a k => V (ix2 a k)) (fun k => c (ix1 k)) (fun k q => V2 (ix2 k q)) (fun q => c2 (ix1 q)) (i 1)

end Cert.Mpn

end
-- ==== Proof.LibPlainDot.lean ====
/-
  A plain two-dimensional matrix product read at an entry, on the extended reals.

  For the dimension numbers of an [M, K] by [K, N] product (no batch axis, the left operand contracted on its second
  axis and the right on its first), the entry (p, q) of the product into a zero accumulator, and of the host's
  `dot_general`, is the sum over k of l (p, k) · r (k, q).
-/
import Idealize.ShloMosaic.PureOps.Ideal.Laws
import Idealize.ShloMosaic.Lib.ValueIdx

noncomputable section

namespace Cert.LibPlainDot

open Idealize.ShloMosaic Idealize.ShloMosaic.ValueIdx

/-- The left operand's index at output entry (p, q) and contraction coordinate k is (p, k). -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact hk

/-- The right operand's index there is (k, q). -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact hk
  | ⟨1, _⟩ => rfl

/-- A matrix-unit product into the zero accumulator, at entry (p, q): the sum over the shared axis. -/
theorem matmul_zero_plain {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's `dot_general` with the same dimension numbers, at entry (p, q): the same sum. -/
theorem dotGeneral_plain {φ₁ φ₂ : FTy} (M K N : Nat) (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainDot

end
-- ==== Proof.KernelRow.lean ====
/-
  One tile of the kernel, read one edge at a time.

  The kernel body's two stored values — the tile's edge messages [5120, 6] and node messages [5120, 32] — are, entry by
  entry, the specification's `edgeRow` / `nodeRow` of the tile's rows: each matrix-unit product into a zero accumulator
  is a plain sum over the shared axis, a slice of a weight matrix reads the matrix at the shifted row, a bias is
  broadcast along the rows, and the relu is the maximum with zero.
-/
import proofs.«414284_j19662360281744_4_alg».proof.Proof.Gen.KernelIdeal.Skeleton
import proofs.«414284_j19662360281744_4_alg».proof.Proof.Spec
import proofs.«414284_j19662360281744_4_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Idealize.ShloMosaic Idealize.ShloMosaic.ValueIdx Cert.KernelIdeal Cert.KernelIdeal.Gen Cert.KernelIdeal.Facts₀ Cert.KernelIdeal.Facts
open Cert.Mpn Cert.LibPlainDot

/-- A dense layer's tail at an entry: the bias row added to every row, then the maximum with zero. -/
theorem relu_bias_apply {a b : ℕ} (v : FVec Ideal ⟨2, ![a, b]⟩ .f32) (bias : Vec Ideal ⟨1, ![b]⟩ .f32)
    (hsc : (⟨1, ![b]⟩ : Shape).ShapeCasts ⟨2, ![1, b]⟩) (hbc : (⟨2, ![1, b]⟩ : Shape).Broadcasts ⟨2, ![a, b]⟩)
    (p : Fin a) (q : Fin b) :
    maximumf (addf v (broadcastTo ⟨2, ![a, b]⟩ (shapeCast ⟨2, ![1, b]⟩ bias hsc) hbc))
        (broadcast ⟨2, ![a, b]⟩ (Scalar.ofBits (F := Ideal) .f32 0x00000000#32)) (ix2 p q)
      = max (v (ix2 p q) + bias (ix1 q)) 0 := by
  show max (v (ix2 p q) + broadcastTo ⟨2, ![a, b]⟩ (shapeCast ⟨2, ![1, b]⟩ bias hsc) hbc (ix2 p q)) (Ideal.ofBits .f32 0x00000000#32) = _
  rw [broadcastTo_1b_ab_apply, shapeCast_a_1a_apply, Ideal.ofBits_zero_f32]

/-- A product with a block of rows of a weight matrix, at an entry: the sum over the block, the matrix read at the
    block's offset plus the summation index. -/
theorem block_dot_apply {M K N R : ℕ} (o : ℕ) (x : FVec Ideal ⟨2, ![M, K]⟩ .f32) (w : FVec Ideal ⟨2, ![R, N]⟩ .f32)
    (hs : (⟨2, ![R, N]⟩ : Shape).Slices ![o, 0] ⟨2, ![K, N]⟩) (row : Fin K → Fin R) (hrow : ∀ a, (row a).val = o + a.val)
    (p : Fin M) (k : Fin N) :
    FloatOps.matmul (DotDims.plain M K N) none x (extractStridedSlice ⟨2, ![K, N]⟩ ![o, 0] w hs)
        (constant ⟨2, ![M, N]⟩ .f32 0x00000000#32) (ix2 p k)
      = ∑ a : Fin K, x (ix2 p a) * w (ix2 (row a) k) :=
  (matmul_zero_plain M K N none x _ p k).trans
    (Finset.sum_congr rfl fun a _ => congrArg (x (ix2 p a) * ·) (slice2_axis0_apply o w hs a k (row a) (hrow a)))

/-- The tile's edge messages at edge `p`, unit `q`. -/
theorem edge_pay_apply (x0 x1 : Vec Ideal S5120x32 .f32) (x2 : Vec Ideal S5120x6 .f32) (w : Vec Ideal S70x32 .f32)
    (b : Vec Ideal S32 .f32) (w2 : Vec Ideal S32x6 .f32) (b2 : Vec Ideal S6 .f32) (p : Fin 5120) (q : Fin 6) :
    k0_pay3 (F := Ideal) x0 x1 x2 w b w2 b2 (ix2 p q)
      = edgeRow (fun a => x0 (ix2 p a)) (fun a => x1 (ix2 p a)) (fun a => x2 (ix2 p a))
          (fun a k => w (ix2 a k)) (fun k => b (ix1 k)) (fun k q => w2 (ix2 k q)) (fun q => b2 (ix1 q)) q := by
  unfold k0_pay3 k0_pay2 edgeRow
  refine (relu_bias_apply _ b2 _ _ p q).trans ?_
  refine congrArg (fun s => max (s + b2 (ix1 q)) 0) ?_
  refine (matmul_zero_plain 5120 32 6 none _ w2 p q).trans ?_
  refine Finset.sum_congr rfl fun k _ => congrArg (· * w2 (ix2 k q)) ?_
  unfold edgeHidden
  refine (relu_bias_apply _ b _ _ p k).trans ?_
  refine congrArg (fun s => max (s + b (ix1 k)) 0) ?_
  refine congrArg₂ (· + ·) (congrArg₂ (· + ·) ?_ ?_) ?_
  · rw [shapeCast_self]
    exact block_dot_apply 0 x0 w _ r70a (fun a => (Nat.zero_add _).symm) p k
  · rw [shapeCast_self]
    exact block_dot_apply 32 x1 w _ r70b (fun a => rfl) p k
  · exact block_dot_apply 64 x2 w _ r70c (fun a => rfl) p k

/-- The tile's node messages at edge `p`, unit `q`: the node encoder applied to the edge's destination row and to its
    edge message (the row the first store holds). -/
theorem node_pay_apply (x0 x1 : Vec Ideal S5120x32 .f32) (x2 : Vec Ideal S5120x6 .f32) (w : Vec Ideal S70x32 .f32)
    (b : Vec Ideal S32 .f32) (w2 : Vec Ideal S32x6 .f32) (b2 : Vec Ideal S6 .f32) (v : Vec Ideal S38x64 .f32)
    (c : Vec Ideal S64 .f32) (v2 : Vec Ideal S64x32 .f32) (c2 : Vec Ideal S32 .f32) (p : Fin 5120) (q : Fin 32) :
    k0_pay1 (F := Ideal) (k0_pay4 x0 v) (k0_pay5 x0 x1 x2 w b w2 b2 v) c v2 c2 (ix2 p q)
      = nodeRow (fun a => x0 (ix2 p a))
          (edgeRow (fun a => x0 (ix2 p a)) (fun a => x1 (ix2 p a)) (fun a => x2 (ix2 p a))
            (fun a k => w (ix2 a k)) (fun k => b (ix1 k)) (fun k q => w2 (ix2 k q)) (fun q => b2 (ix1 q)))
          (fun a k => v (ix2 a k)) (fun k => c (ix1 k)) (fun k q => v2 (ix2 k q)) (fun q => c2 (ix1 q)) q := by
  unfold k0_pay1 k0_pay4 k0_pay5 k0_pay2 nodeRow
  refine (relu_bias_apply _ c2 _ _ p q).trans ?_
  refine congrArg (fun s => max (s + c2 (ix1 q)) 0) ?_
  refine (matmul_zero_plain 5120 64 32 none _ v2 p q).trans ?_
  refine Finset.sum_congr rfl fun k _ => congrArg (· * v2 (ix2 k q)) ?_
  unfold nodeHidden
  refine (relu_bias_apply _ c _ _ p k).trans ?_
  refine congrArg (fun s => max (s + c (ix1 k)) 0) ?_
  refine congrArg₂ (· + ·) ?_ ?_
  · rw [shapeCast_self]
    exact block_dot_apply 0 x0 v _ r38a (fun a => (Nat.zero_add _).symm) p k
  · refine (block_dot_apply 32 (k0_pay3 (F := Ideal) x0 x1 x2 w b w2 b2) v _ r38b (fun a => rfl) p k).trans ?_
    exact Finset.sum_congr rfl fun a _ => congrArg (· * v (ix2 (r38b a) k)) (edge_pay_apply x0 x1 x2 w b w2 b2 p a)

end Cert.KernelIdeal.Row

end
-- ==== Proof.KernelBlocks.lean ====
/-
  From tiles to arrays: the two message arrays the region leaves.

  The grid has 625 points; point `t` stages rows [5120 t, 5120 t + 5120) of the three per-edge arrays (destination
  rows, source rows, edge features) and the whole of every weight and bias, and writes back rows
  [5120 t, 5120 t + 5120) of the two outputs. So what point `t` writes back is block `t` of the specification's
  arrays of the arrays the region finds, and since the 625 blocks tile the 3,200,000 rows, the outputs end holding
  those arrays.
-/
import proofs.«414284_j19662360281744_4_alg».proof.Proof.Gen.KernelIdeal.Frame
import proofs.«414284_j19662360281744_4_alg».proof.Proof.KernelRow
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.Mpn

variable (m : (ℓ : Loc nD τ sig) → Buf (Elt Ideal) ℓ)

theorem hz2 : (![0, 0] : Fin 2 → Nat) = fun _ => 0 := funext fun a => by fin_cases a <;> rfl

theorem hz1 : (![0] : Fin 1 → Nat) = fun _ => 0 := funext fun a => by fin_cases a <;> rfl

/-! ## The printed index maps, decided over the 625 grid points: the per-edge windows and the two outputs sit at row
    block `t`; every weight and bias window at block 0 -/

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 1) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 1) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 1) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

theorem idx10 : ∀ t : Fin cfg0.N, win0_10.index t (0 : Fin 1) = 0 :=
  (by decide +kernel : ∀ t : Fin grid0.N, _)

theorem idx11 : ∀ t : Fin cfg0.N, win0_11.index t (0 : Fin 2) = t.val ∧ win0_11.index t (1 : Fin 2) = 0 :=
  (by decide +kernel : ∀ t : Fin grid0.N, _)

theorem idx12 : ∀ t : Fin cfg0.N, win0_12.index t (0 : Fin 2) = t.val ∧ win0_12.index t (1 : Fin 2) = 0 :=
  (by decide +kernel : ∀ t : Fin grid0.N, _)

/-- A grid point is below 625. -/
theorem t_lt (t : Fin cfg0.N) : t.val < 625 := Nat.lt_of_lt_of_eq t.isLt N_0

/-- Row `p` of tile `t`, as a row of the [3200000, ·] arrays. -/
abbrev rowOf (t : Fin cfg0.N) (p : Fin 5120) : Fin 3200000 := ⟨t.val * 5120 + p.val, by have := t_lt t; have := p.isLt; omega⟩

/-! ## Each window's block at point `t`, read off an array -/

/-- Window 0's tile: rows 5120 t … of the gathered destination rows. -/
abbrev rd0 (t : Fin cfg0.N) (X : S3200000x32.Idx → EReal) : Vec Ideal S5120x32 .f32 := ((cfg0.win 0).blk t).view.read (Elt Ideal) X
theorem rd0_apply (t : Fin cfg0.N) (X : S3200000x32.Idx → EReal) (p : Fin 5120) (a : Fin 32) :
    rd0 t X (ix2 p a) = X (ix2 (rowOf t p) a) := by
  obtain ⟨e0, e1⟩ := idx0 t
  unfold rd0
  rw [View.read_apply]
  refine congrArg X (funext fun ax => Fin.ext ?_)
  match ax with
  | ⟨0, _⟩ => show win0_0.index t (0 : Fin 2) * 5120 + 1 * p.val = t.val * 5120 + p.val; rw [e0]; omega
  | ⟨1, _⟩ => show win0_0.index t (1 : Fin 2) * 32 + 1 * a.val = a.val; rw [e1]; omega

/-- Window 1's tile: rows 5120 t … of the gathered source rows. -/
abbrev rd1 (t : Fin cfg0.N) (X : S3200000x32.Idx → EReal) : Vec Ideal S5120x32 .f32 := ((cfg0.win 1).blk t).view.read (Elt Ideal) X
theorem rd1_apply (t : Fin cfg0.N) (X : S3200000x32.Idx → EReal) (p : Fin 5120) (a : Fin 32) :
    rd1 t X (ix2 p a) = X (ix2 (rowOf t p) a) := by
  obtain ⟨e0, e1⟩ := idx1 t
  unfold rd1
  rw [View.read_apply]
  refine congrArg X (funext fun ax => Fin.ext ?_)
  match ax with
  | ⟨0, _⟩ => show win0_1.index t (0 : Fin 2) * 5120 + 1 * p.val = t.val * 5120 + p.val; rw [e0]; omega
  | ⟨1, _⟩ => show win0_1.index t (1 : Fin 2) * 32 + 1 * a.val = a.val; rw [e1]; omega

/-- Window 2's tile: rows 5120 t … of the edge features. -/
abbrev rd2 (t : Fin cfg0.N) (X : S3200000x6.Idx → EReal) : Vec Ideal S5120x6 .f32 := ((cfg0.win 2).blk t).view.read (Elt Ideal) X
theorem rd2_apply (t : Fin cfg0.N) (X : S3200000x6.Idx → EReal) (p : Fin 5120) (a : Fin 6) :
    rd2 t X (ix2 p a) = X (ix2 (rowOf t p) a) := by
  obtain ⟨e0, e1⟩ := idx2 t
  unfold rd2
  rw [View.read_apply]
  refine congrArg X (funext fun ax => Fin.ext ?_)
  match ax with
  | ⟨0, _⟩ => show win0_2.index t (0 : Fin 2) * 5120 + 1 * p.val = t.val * 5120 + p.val; rw [e0]; omega
  | ⟨1, _⟩ => show win0_2.index t (1 : Fin 2) * 6 + 1 * a.val = a.val; rw [e1]; omega

/-- Window 3 stages the whole first edge-encoder weight. -/
abbrev rd3 (t : Fin cfg0.N) (X : S70x32.Idx → EReal) : Vec Ideal S70x32 .f32 := ((cfg0.win 3).blk t).view.read (Elt Ideal) X
theorem rd3_eq (t : Fin cfg0.N) (X : S70x32.Idx → EReal) : rd3 t X = X := by
  obtain ⟨e0, e1⟩ := idx3 t
  funext j
  unfold rd3
  rw [View.read_apply]
  refine congrArg X (funext fun ax => Fin.ext ?_)
  match ax with
  | ⟨0, _⟩ => show win0_3.index t (0 : Fin 2) * 70 + 1 * (j 0).val = (j 0).val; rw [e0]; omega
  | ⟨1, _⟩ => show win0_3.index t (1 : Fin 2) * 32 + 1 * (j 1).val = (j 1).val; rw [e1]; omega

/-- Window 4 stages the whole first edge-encoder bias. -/
abbrev rd4 (t : Fin cfg0.N) (X : S32.Idx → EReal) : Vec Ideal S32 .f32 := ((cfg0.win 4).blk t).view.read (Elt Ideal) X
theorem rd4_eq (t : Fin cfg0.N) (X : S32.Idx → EReal) : rd4 t X = X := by
  have e0 := idx4 t
  funext j
  unfold rd4
  rw [View.read_apply]
  refine congrArg X (funext fun ax => Fin.ext ?_)
  match ax with
  | ⟨0, _⟩ => show win0_4.index t (0 : Fin 1) * 32 + 1 * (j 0).val = (j 0).val; rw [e0]; omega

/-- Window 5 stages the whole second edge-encoder weight. -/
abbrev rd5 (t : Fin cfg0.N) (X : S32x6.Idx → EReal) : Vec Ideal S32x6 .f32 := ((cfg0.win 5).blk t).view.read (Elt Ideal) X
theorem rd5_eq (t : Fin cfg0.N) (X : S32x6.Idx → EReal) : rd5 t X = X := by
  obtain ⟨e0, e1⟩ := idx5 t
  funext j
  unfold rd5
  rw [View.read_apply]
  refine congrArg X (funext fun ax => Fin.ext ?_)
  match ax with
  | ⟨0, _⟩ => show win0_5.index t (0 : Fin 2) * 32 + 1 * (j 0).val = (j 0).val; rw [e0]; omega
  | ⟨1, _⟩ => show win0_5.index t (1 : Fin 2) * 6 + 1 * (j 1).val = (j 1).val; rw [e1]; omega

/-- Window 6 stages the whole second edge-encoder bias. -/
abbrev rd6 (t : Fin cfg0.N) (X : S6.Idx → EReal) : Vec Ideal S6 .f32 := ((cfg0.win 6).blk t).view.read (Elt Ideal) X
theorem rd6_eq (t : Fin cfg0.N) (X : S6.Idx → EReal) : rd6 t X = X := by
  have e0 := idx6 t
  funext j
  unfold rd6
  rw [View.read_apply]
  refine congrArg X (funext fun ax => Fin.ext ?_)
  match ax with
  | ⟨0, _⟩ => show win0_6.index t (0 : Fin 1) * 6 + 1 * (j 0).val = (j 0).val; rw [e0]; omega

/-- Window 7 stages the whole first node-encoder weight. -/
abbrev rd7 (t : Fin cfg0.N) (X : S38x64.Idx → EReal) : Vec Ideal S38x64 .f32 := ((cfg0.win 7).blk t).view.read (Elt Ideal) X
theorem rd7_eq (t : Fin cfg0.N) (X : S38x64.Idx → EReal) : rd7 t X = X := by
  obtain ⟨e0, e1⟩ := idx7 t
  funext j
  unfold rd7
  rw [View.read_apply]
  refine congrArg X (funext fun ax => Fin.ext ?_)
  match ax with
  | ⟨0, _⟩ => show win0_7.index t (0 : Fin 2) * 38 + 1 * (j 0).val = (j 0).val; rw [e0]; omega
  | ⟨1, _⟩ => show win0_7.index t (1 : Fin 2) * 64 + 1 * (j 1).val = (j 1).val; rw [e1]; omega

/-- Window 8 stages the whole first node-encoder bias. -/
abbrev rd8 (t : Fin cfg0.N) (X : S64.Idx → EReal) : Vec Ideal S64 .f32 := ((cfg0.win 8).blk t).view.read (Elt Ideal) X
theorem rd8_eq (t : Fin cfg0.N) (X : S64.Idx → EReal) : rd8 t X = X := by
  have e0 := idx8 t
  funext j
  unfold rd8
  rw [View.read_apply]
  refine congrArg X (funext fun ax => Fin.ext ?_)
  match ax with
  | ⟨0, _⟩ => show win0_8.index t (0 : Fin 1) * 64 + 1 * (j 0).val = (j 0).val; rw [e0]; omega

/-- Window 9 stages the whole second node-encoder weight. -/
abbrev rd9 (t : Fin cfg0.N) (X : S64x32.Idx → EReal) : Vec Ideal S64x32 .f32 := ((cfg0.win 9).blk t).view.read (Elt Ideal) X
theorem rd9_eq (t : Fin cfg0.N) (X : S64x32.Idx → EReal) : rd9 t X = X := by
  obtain ⟨e0, e1⟩ := idx9 t
  funext j
  unfold rd9
  rw [View.read_apply]
  refine congrArg X (funext fun ax => Fin.ext ?_)
  match ax with
  | ⟨0, _⟩ => show win0_9.index t (0 : Fin 2) * 64 + 1 * (j 0).val = (j 0).val; rw [e0]; omega
  | ⟨1, _⟩ => show win0_9.index t (1 : Fin 2) * 32 + 1 * (j 1).val = (j 1).val; rw [e1]; omega

/-- Window 10 stages the whole second node-encoder bias. -/
abbrev rd10 (t : Fin cfg0.N) (X : S32.Idx → EReal) : Vec Ideal S32 .f32 := ((cfg0.win 10).blk t).view.read (Elt Ideal) X
theorem rd10_eq (t : Fin cfg0.N) (X : S32.Idx → EReal) : rd10 t X = X := by
  have e0 := idx10 t
  funext j
  unfold rd10
  rw [View.read_apply]
  refine congrArg X (funext fun ax => Fin.ext ?_)
  match ax with
  | ⟨0, _⟩ => show win0_10.index t (0 : Fin 1) * 32 + 1 * (j 0).val = (j 0).val; rw [e0]; omega

/-- Output window 11's block: rows 5120 t … of an [E, 6] array. -/
abbrev rd11 (t : Fin cfg0.N) (X : S3200000x6.Idx → EReal) : Vec Ideal S5120x6 .f32 := ((cfg0.win 11).blk t).view.read (Elt Ideal) X
theorem rd11_apply (t : Fin cfg0.N) (X : S3200000x6.Idx → EReal) (p : Fin 5120) (a : Fin 6) :
    rd11 t X (ix2 p a) = X (ix2 (rowOf t p) a) := by
  obtain ⟨e0, e1⟩ := idx11 t
  unfold rd11
  rw [View.read_apply]
  refine congrArg X (funext fun ax => Fin.ext ?_)
  match ax with
  | ⟨0, _⟩ => show win0_11.index t (0 : Fin 2) * 5120 + 1 * p.val = t.val * 5120 + p.val; rw [e0]; omega
  | ⟨1, _⟩ => show win0_11.index t (1 : Fin 2) * 6 + 1 * a.val = a.val; rw [e1]; omega

/-- Output window 12's block: rows 5120 t … of an [E, 32] array. -/
abbrev rd12 (t : Fin cfg0.N) (X : S3200000x32.Idx → EReal) : Vec Ideal S5120x32 .f32 := ((cfg0.win 12).blk t).view.read (Elt Ideal) X
theorem rd12_apply (t : Fin cfg0.N) (X : S3200000x32.Idx → EReal) (p : Fin 5120) (a : Fin 32) :
    rd12 t X (ix2 p a) = X (ix2 (rowOf t p) a) := by
  obtain ⟨e0, e1⟩ := idx12 t
  unfold rd12
  rw [View.read_apply]
  refine congrArg X (funext fun ax => Fin.ext ?_)
  match ax with
  | ⟨0, _⟩ => show win0_12.index t (0 : Fin 2) * 5120 + 1 * p.val = t.val * 5120 + p.val; rw [e0]; omega
  | ⟨1, _⟩ => show win0_12.index t (1 : Fin 2) * 32 + 1 * a.val = a.val; rw [e1]; omega

end Cert.KernelIdeal.Blocks

end
-- ==== Proof.KernelFlush.lean ====
/-
  What each grid point writes back, and the two arrays the region leaves.

  Point `t` writes back, through the two output windows, block `t` (rows 5120 t … 5120 t + 5119) of the edge
  messages and of the node messages of the arrays the region finds in its input windows; the 625 blocks tile the
  3,200,000 rows, so after the run the two output arrays hold those messages whole.
-/
import proofs.«414284_j19662360281744_4_alg».proof.Proof.KernelBlocks

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.Mpn

variable (m : (ℓ : Loc nD τ sig) → Buf (Elt Ideal) ℓ)

/-! ## What a point writes back -/

/-- What point `t` writes back through window 11, for any arrays in the windows: block `t` of the edge messages. -/
theorem flushed11_gen (t : Fin cfg0.N) (X0 X1 : S3200000x32.Idx → EReal) (X2 : S3200000x6.Idx → EReal) (X3 : S70x32.Idx → EReal)
    (X4 : S32.Idx → EReal) (X5 : S32x6.Idx → EReal) (X6 : S6.Idx → EReal) (X7 : S38x64.Idx → EReal) (X8 : S64.Idx → EReal)
    (X9 : S64x32.Idx → EReal) (X10 : S32.Idx → EReal) :
    (cfg0.win 11).cut (grid0.coords t) (out0_11 (rd0 t X0) (rd1 t X1) (rd2 t X2) (rd3 t X3) (rd4 t X4) (rd5 t X5) (rd6 t X6)
        (rd7 t X7) (rd8 t X8) (rd9 t X9) (rd10 t X10))
      = rd11 t (edgeArr X0 X1 X2 X3 X4 X5 X6) := by
  unfold out0_11
  rw [View.canon_unit_zero hz2]
  simp only [View.ld_unit_zero (S := S5120x32) hz2, View.ld_unit_zero (S := S5120x6) hz2, View.ld_unit_zero (S := S70x32) hz2,
    View.ld_unit_zero (S := S32) hz1, View.ld_unit_zero (S := S32x6) hz2, View.ld_unit_zero (S := S6) hz1]
  funext (j : S5120x6.Idx)
  obtain ⟨p, q, rfl⟩ : ∃ (p : Fin 5120) (q : Fin 6), j = ix2 p q := ⟨j 0, j 1, eq_ix2 j⟩
  show k0_pay3 (F := Ideal) (rd0 t X0) (rd1 t X1) (rd2 t X2) (rd3 t X3) (rd4 t X4) (rd5 t X5) (rd6 t X6) (ix2 p q) = _
  rw [rd11_apply]
  refine (Cert.KernelIdeal.Row.edge_pay_apply (rd0 t X0) (rd1 t X1) (rd2 t X2) (rd3 t X3) (rd4 t X4) (rd5 t X5) (rd6 t X6) p q).trans ?_
  simp only [rd0_apply, rd1_apply, rd2_apply, rd3_eq, rd4_eq, rd5_eq, rd6_eq]
  rfl

/-- What point `t` writes back through window 12, for any arrays in the windows: block `t` of the node messages. -/
theorem flushed12_gen (t : Fin cfg0.N) (X0 X1 : S3200000x32.Idx → EReal) (X2 : S3200000x6.Idx → EReal) (X3 : S70x32.Idx → EReal)
    (X4 : S32.Idx → EReal) (X5 : S32x6.Idx → EReal) (X6 : S6.Idx → EReal) (X7 : S38x64.Idx → EReal) (X8 : S64.Idx → EReal)
    (X9 : S64x32.Idx → EReal) (X10 : S32.Idx → EReal) :
    (cfg0.win 12).cut (grid0.coords t) (out0_12 (rd0 t X0) (rd1 t X1) (rd2 t X2) (rd3 t X3) (rd4 t X4) (rd5 t X5) (rd6 t X6)
        (rd7 t X7) (rd8 t X8) (rd9 t X9) (rd10 t X10))
      = rd12 t (nodeArr X0 (edgeArr X0 X1 X2 X3 X4 X5 X6) X7 X8 X9 X10) := by
  unfold out0_12
  rw [View.canon_unit_zero hz2]
  simp only [View.ld_unit_zero (S := S5120x32) hz2, View.ld_unit_zero (S := S5120x6) hz2, View.ld_unit_zero (S := S70x32) hz2,
    View.ld_unit_zero (S := S32) hz1, View.ld_unit_zero (S := S32x6) hz2, View.ld_unit_zero (S := S6) hz1,
    View.ld_unit_zero (S := S38x64) hz2, View.ld_unit_zero (S := S64) hz1, View.ld_unit_zero (S := S64x32) hz2]
  funext (j : S5120x32.Idx)
  obtain ⟨p, q, rfl⟩ : ∃ (p : Fin 5120) (q : Fin 32), j = ix2 p q := ⟨j 0, j 1, eq_ix2 j⟩
  show k0_pay1 (F := Ideal) (k0_pay4 (rd0 t X0) (rd7 t X7))
      (k0_pay5 (rd0 t X0) (rd1 t X1) (rd2 t X2) (rd3 t X3) (rd4 t X4) (rd5 t X5) (rd6 t X6) (rd7 t X7))
      (rd8 t X8) (rd9 t X9) (rd10 t X10) (ix2 p q) = _
  rw [rd12_apply]
  refine (Cert.KernelIdeal.Row.node_pay_apply (rd0 t X0) (rd1 t X1) (rd2 t X2) (rd3 t X3) (rd4 t X4) (rd5 t X5) (rd6 t X6)
    (rd7 t X7) (rd8 t X8) (rd9 t X9) (rd10 t X10) p q).trans ?_
  simp only [rd0_apply, rd1_apply, rd2_apply, rd3_eq, rd4_eq, rd5_eq, rd6_eq, rd7_eq, rd8_eq, rd9_eq, rd10_eq]
  rfl

/-! ## The two output arrays after the run -/

/-- The edge messages of the arrays the region finds in its windows. -/
abbrev EdgeOut (c : Dev nD) : S3200000x6.Idx → EReal :=
  edgeArr (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) (V m c (Pipeline.arrRef spec0 6))

/-- The node messages of the arrays the region finds in its windows. -/
abbrev NodeOut (c : Dev nD) : S3200000x32.Idx → EReal :=
  nodeArr (V m c (Pipeline.arrRef spec0 0)) (EdgeOut m c)
    (V m c (Pipeline.arrRef spec0 7)) (V m c (Pipeline.arrRef spec0 8)) (V m c (Pipeline.arrRef spec0 9)) (V m c (Pipeline.arrRef spec0 10))

/-- Point `t` writes back block `t` of the edge messages. -/
theorem flushed11_eq (c : Dev nD) (t : Fin cfg0.N) :
    (dats m 0 c).flushed 11 t = ((cfg0.win 11).blk t).view.read (Elt Ideal) (EdgeOut m c) := by
  show (cfg0.win 11).cut (grid0.coords t) ((dats m 0 c).after 11 t) = _
  rw [after0_11]
  unfold iblk
  exact flushed11_gen t (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) (V m c (Pipeline.arrRef spec0 6))
    (V m c (Pipeline.arrRef spec0 7)) (V m c (Pipeline.arrRef spec0 8)) (V m c (Pipeline.arrRef spec0 9)) (V m c (Pipeline.arrRef spec0 10))

/-- Point `t` writes back block `t` of the node messages. -/
theorem flushed12_eq (c : Dev nD) (t : Fin cfg0.N) :
    (dats m 0 c).flushed 12 t = ((cfg0.win 12).blk t).view.read (Elt Ideal) (NodeOut m c) := by
  show (cfg0.win 12).cut (grid0.coords t) ((dats m 0 c).after 12 t) = _
  rw [after0_12]
  unfold iblk
  exact flushed12_gen t (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) (V m c (Pipeline.arrRef spec0 6))
    (V m c (Pipeline.arrRef spec0 7)) (V m c (Pipeline.arrRef spec0 8)) (V m c (Pipeline.arrRef spec0 9)) (V m c (Pipeline.arrRef spec0 10))

/-- The point whose block holds row `r`. -/
abbrev pointOf (r : Fin 3200000) : Fin cfg0.N := ⟨r.val / 5120, Nat.lt_of_lt_of_eq (by have := r.isLt; omega) N_0.symm⟩

/-- An index of the [E, 6] array is in point `t`'s block iff each coordinate is in the block's range on its axis. -/
theorem mem_blk11 (t : Fin cfg0.N) (i : S3200000x6.Idx) :
    i ∈ ((cfg0.win 11).blk t).view.set ↔ ∀ a : Fin 2, win0_11.index t a * S5120x6.size a ≤ (i a).val ∧ (i a).val < win0_11.index t a * S5120x6.size a + S5120x6.size a := by
  show i ∈ ((View.whole main_v2_0).slice (win0_11.rect t)).set ↔ _
  rw [View.set_slice_whole, Rect.mem_set_unit]
  exact Iff.rfl

/-- The same for the [E, 32] array. -/
theorem mem_blk12 (t : Fin cfg0.N) (i : S3200000x32.Idx) :
    i ∈ ((cfg0.win 12).blk t).view.set ↔ ∀ a : Fin 2, win0_12.index t a * S5120x32.size a ≤ (i a).val ∧ (i a).val < win0_12.index t a * S5120x32.size a + S5120x32.size a := by
  show i ∈ ((View.whole main_v2_1).slice (win0_12.rect t)).set ↔ _
  rw [View.set_slice_whole, Rect.mem_set_unit]
  exact Iff.rfl

/-- The 625 blocks of 5120 rows tile the 3,200,000 rows: row `r` is in the block of point `r / 5120`. -/
theorem cover11 (i : S3200000x6.Idx) : ∃ t : Fin cfg0.N, (cfg0.win 11).flush t = true ∧ i ∈ ((cfg0.win 11).blk t).view.set := by
  refine ⟨pointOf (i 0), flush0_11 _, ?_⟩
  rw [mem_blk11]
  obtain ⟨e0, e1⟩ := idx11 (pointOf (i 0))
  have h1 : (i 1).val < 6 := (i 1).isLt
  intro a
  match a with
  | ⟨0, _⟩ => show win0_11.index (pointOf (i 0)) (0 : Fin 2) * 5120 ≤ (i 0).val ∧ (i 0).val < win0_11.index (pointOf (i 0)) (0 : Fin 2) * 5120 + 5120; rw [e0]; show (i 0).val / 5120 * 5120 ≤ (i 0).val ∧ (i 0).val < (i 0).val / 5120 * 5120 + 5120; omega
  | ⟨1, _⟩ => show win0_11.index (pointOf (i 0)) (1 : Fin 2) * 6 ≤ (i 1).val ∧ (i 1).val < win0_11.index (pointOf (i 0)) (1 : Fin 2) * 6 + 6; rw [e1]; omega

theorem cover12 (i : S3200000x32.Idx) : ∃ t : Fin cfg0.N, (cfg0.win 12).flush t = true ∧ i ∈ ((cfg0.win 12).blk t).view.set := by
  refine ⟨pointOf (i 0), flush0_12 _, ?_⟩
  rw [mem_blk12]
  obtain ⟨e0, e1⟩ := idx12 (pointOf (i 0))
  have h1 : (i 1).val < 32 := (i 1).isLt
  intro a
  match a with
  | ⟨0, _⟩ => show win0_12.index (pointOf (i 0)) (0 : Fin 2) * 5120 ≤ (i 0).val ∧ (i 0).val < win0_12.index (pointOf (i 0)) (0 : Fin 2) * 5120 + 5120; rw [e0]; show (i 0).val / 5120 * 5120 ≤ (i 0).val ∧ (i 0).val < (i 0).val / 5120 * 5120 + 5120; omega
  | ⟨1, _⟩ => show win0_12.index (pointOf (i 0)) (1 : Fin 2) * 32 ≤ (i 1).val ∧ (i 1).val < win0_12.index (pointOf (i 0)) (1 : Fin 2) * 32 + 32; rw [e1]; omega

/-- After the run window 11's array holds the edge messages. -/
theorem final11 (c : Dev nD) : (dats m 0 c).arrAt 11 cfg0.N = EdgeOut m c :=
  (dats m 0 c).arrAt_eq_of_cover 11 (EdgeOut m c) (fun t _ => flushed11_eq m c t) (cover11)

/-- After the run window 12's array holds the node messages. -/
theorem final12 (c : Dev nD) : (dats m 0 c).arrAt 12 cfg0.N = NodeOut m c :=
  (dats m 0 c).arrAt_eq_of_cover 12 (NodeOut m c) (fun t _ => flushed12_eq m c t) (cover12)

end Cert.KernelIdeal.Blocks

end
-- ==== Proof.TakeDefs.lean ====
/-
  Gathering node rows by edge endpoint, as the two programs spell it.

  Both programs first turn a node id into a row index the way array indexing does (a negative id counts from the
  end: `id + 100000`), and gather the rows of the [100000, 32] node table at those indices. The kernel's host code
  (`take` in its fill mode) then replaces every row whose index is outside [0, 99999] by the not-a-number
  pattern; the reference keeps the gathered row. For ids in [0, 100000) the two agree.
-/
import proofs.«414284_j19662360281744_4_alg».proof.Proof.Gen.KernelIdeal

noncomputable section

namespace Cert.KernelIdeal.Rows

open Idealize.ShloMosaic Cert.KernelIdeal Cert.KernelIdeal.Facts₀ Cert.KernelIdeal.Facts

variable {F : FTy → Type} [FloatOps F]

/-- The row index of a node id: `id + 100000` for a negative id, the id itself otherwise; as an [E, 1] column. -/
def wrapIdx (idx : IVec S3200000 32) : IVec S3200000x1 32 :=
  broadcastInDim S3200000x1 ![0] bcast_S3200000_S3200000x1_0
    (select (cmpi .slt idx (broadcastInDim S3200000 ![] bcast_S_S3200000 (constantI S_ 32 0#32)))
      (addi idx (broadcastInDim S3200000 ![] bcast_S_S3200000 (constantI S_ 32 100000#32))) idx)

/-- The gathered rows [E, 32]: row `e` is the node table's row at `wrapIdx idx e`. -/
def rowsAt (x : FVec F S100000x32 .f32) (idx : IVec S3200000 32) : FVec F S3200000x32 .f32 :=
  Host.gather gather_S100000x32_S3200000x1_S3200000x32_1_0_n_n_0_1_132 x (wrapIdx idx)

/-- The same rows with every row whose index is outside [0, 99999] replaced by the not-a-number pattern. -/
def takeRows (x : FVec F S100000x32 .f32) (idx : IVec S3200000 32) : FVec F S3200000x32 .f32 :=
  select
    (broadcastInDim S3200000x32 ![0] bcast_S3200000_S3200000x32_0
      (Host.reduce IntOp.andi
        (andi (cmpi .sge (wrapIdx idx) (broadcastInDim S3200000x1 ![] bcast_S_S3200000x1 (constantI S_ 32 0#32)))
          (cmpi .sle (wrapIdx idx)
            (broadcastInDim S3200000x1 ![0, 1] bcast_S1x1_S3200000x1_0_1
              (broadcastInDim S1x1 ![1] bcast_S1_S1x1_1 (constantI S1 32 99999#32)))))
        (constantI S_ 1 1#1) reducesTo_S3200000x1_S3200000_d1 h_S_))
    (rowsAt x idx)
    (broadcastInDim S3200000x32 ![] bcast_S_S3200000x32 (constant S_ .f32 0x7FC00000#32))

end Cert.KernelIdeal.Rows

end
-- ==== Proof.TakeRows.lean ====
/-
  Node ids in range make the kernel's filled take a plain gather, and the precondition says the ids are in range.

  The kernel gathers the node table's rows at the wrapped indices (a negative id counts from the end) and then
  replaces every row whose wrapped index lies outside [0, 99999] by the not-a-number pattern. For an id in
  [0, 100000) the wrapped index is the id itself (it is not negative), and it lies in [0, 99999]: the replacement
  never happens. The precondition ends in the two statements "every source id is in [0, 100000)" and "every
  destination id is in [0, 100000)", each an all-reduction of a pair of signed comparisons; read back at an edge they
  give the bound on the id's unsigned value.
-/
import proofs.«414284_j19662360281744_4_alg».proof.Proof.TakeDefs
import proofs.«414284_j19662360281744_4_alg».proof.Pre_finite_inputs
import proofs.«414284_j19662360281744_4_alg».proof.Proof.Gen.Pre_finite_inputs
import Idealize.ShloMosaic.Lib.ReduceAll
import Idealize.ShloMosaic.Lib.ValueIdx
import Idealize.ShloMosaic.Lib.StableHlo.Predicate

noncomputable section

namespace Cert.KernelIdeal.Rows

open Idealize.ShloMosaic Cert.KernelIdeal Cert.KernelIdeal.Facts₀ Cert.KernelIdeal.Facts
open Idealize.ShloMosaic.StableHlo.Predicate

/-! ## Words -/

/-- A one-bit word that is not 1 selects the second operand. -/
theorem select_of_ne_one {α : Type} (c : BitVec 1) (a b : α) (hc : c ≠ 1#1) : Scalar.select c a b = b := if_neg hc

/-- For an id below 100000 (unsigned) the wrapped index is the id: it is not negative. -/
theorem wrap_word (w : BitVec 32) (hw : w.toNat < 100000) :
    Scalar.select (IntOp.cmpi .slt w 0#32) (IntOp.addi w 100000#32) w = w := by
  apply select_of_ne_one
  intro hc
  have := (slt_iff_toNat (a := w) (b := 0#32) (by omega) (by decide)).1 hc
  simp at this

/-- An id below 100000 (unsigned) passes both bounds checks 0 ≤ id and id ≤ 99999 (signed). -/
theorem bounds_word (w : BitVec 32) (hw : w.toNat < 100000) :
    IntOp.andi (IntOp.cmpi .sge w 0#32) (IntOp.cmpi .sle w 99999#32) = 1#1 := by
  rw [IntOp.andi_eq_one]
  refine ⟨(sge_iff_toNat (a := w) (b := 0#32) (by omega) (by decide)).2 (by simp), ?_⟩
  refine (sle_iff_toNat (a := w) (b := 99999#32) (by omega) (by decide)).2 ?_
  have : (99999#32 : BitVec 32).toNat = 99999 := by decide
  omega

/-- A word in [0, 100000) signed is below 100000 unsigned. -/
theorem toNat_lt_of_signed (w : BitVec 32) (h0 : IntOp.cmpi .sge w 0#32 = 1#1) (h1 : IntOp.cmpi .slt w 100000#32 = 1#1) :
    w.toNat < 100000 := by
  unfold IntOp.cmpi at h0 h1
  rw [ofBool_eq_one_iff] at h0 h1
  rw [BitVec.sle_iff_toInt_le] at h0
  rw [BitVec.slt_iff_toInt_lt] at h1
  have e0 : (0#32 : BitVec 32).toInt = 0 := by decide
  have e1 : (100000#32 : BitVec 32).toInt = 100000 := by decide
  rw [e0] at h0
  rw [e1] at h1
  have hlt := w.isLt
  rw [BitVec.toInt_eq_toNat_cond] at h0 h1
  split at h0 <;> omega

/-! ## An all-reduction of ones is one -/

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-- A reduction by `and` from 1 of an array of ones is 1 at every result index. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x hx _

/-- A broadcast of an array of ones is 1 at every index. -/
theorem broadcastInDim_ones {s t : Shape} (dims : Fin s.rank → Fin t.rank) (hb : s.BroadcastsInDim t dims) (m : s.Idx → BitVec 1)
    (hm : ∀ j, m j = 1#1) (i : t.Idx) : broadcastInDim t dims hb m i = 1#1 := hm _

/-! ## The take -/

/-- Read at any position of the column, the wrapped index is the wrapped word of some edge's id. -/
theorem wrapIdx_apply (idx : IVec S3200000 32) (i : S3200000x1.Idx) :
    ∃ e : S3200000.Idx, wrapIdx idx i = Scalar.select (IntOp.cmpi .slt (idx e) 0#32) (IntOp.addi (idx e) 100000#32) (idx e) :=
  ⟨_, rfl⟩

/-- Node ids in [0, 100000) index in range: the fill never happens, the take is the gather. -/
theorem takeRows_eq {F : FTy → Type} [FloatOps F] (x : FVec F S100000x32 .f32) (idx : IVec S3200000 32)
    (h : ∀ e : S3200000.Idx, (idx e).toNat < 100000) :
    takeRows (F := F) x idx = rowsAt (F := F) x idx := by
  funext i
  -- every entry of the bounds column is 1
  have hcol : ∀ i' : S3200000x1.Idx,
      andi (cmpi .sge (wrapIdx idx) (broadcastInDim S3200000x1 ![] bcast_S_S3200000x1 (constantI S_ 32 0#32)))
        (cmpi .sle (wrapIdx idx)
          (broadcastInDim S3200000x1 ![0, 1] bcast_S1x1_S3200000x1_0_1
            (broadcastInDim S1x1 ![1] bcast_S1_S1x1_1 (constantI S1 32 99999#32)))) i' = 1#1 := by
    intro i'
    obtain ⟨e, he⟩ := wrapIdx_apply idx i'
    rw [wrap_word _ (h e)] at he
    show IntOp.andi (IntOp.cmpi .sge (wrapIdx idx i') 0#32) (IntOp.cmpi .sle (wrapIdx idx i') 99999#32) = 1#1
    rw [he]
    exact bounds_word _ (h e)
  have hmask := reduce_andi_ones _ (constantI S_ 1 1#1) reducesTo_S3200000x1_S3200000_d1 h_S_ rfl hcol
  unfold takeRows
  rw [ValueIdx.select_apply, broadcastInDim_ones _ _ _ hmask i]
  exact ValueIdx.select_one _ _

/-! ## The precondition's index ranges -/

local instance subsingleton_scalar_idx : Subsingleton Cert.Pre_finite_inputs.S_.Idx := ⟨fun _ _ => funext fun d => d.elim0⟩

/-- One range statement of the precondition, read back: if the all-reduction of (0 ≤ id) ∧ (id < 100000) over the edges is 1,
    every id is below 100000 unsigned. -/
theorem range_of_all (a : IVec Cert.Pre_finite_inputs.S3200000 32) (j : Cert.Pre_finite_inputs.S_.Idx)
    (e : Host.reduce IntOp.andi
        (andi (cmpi .sge a (broadcastInDim Cert.Pre_finite_inputs.S3200000 ![] Cert.Pre_finite_inputs.Facts.bcast_S_S3200000
            (constantI Cert.Pre_finite_inputs.S_ 32 0#32)))
          (cmpi .slt a (broadcastInDim Cert.Pre_finite_inputs.S3200000 ![] Cert.Pre_finite_inputs.Facts.bcast_S_S3200000
            (constantI Cert.Pre_finite_inputs.S_ 32 100000#32))))
        (constantI Cert.Pre_finite_inputs.S_ 1 1#1) Cert.Pre_finite_inputs.Facts.reducesTo_S3200000_S_d0
        Cert.Pre_finite_inputs.Facts.h_S_ j = 1#1) :
    ∀ i, (a i).toNat < 100000 := by
  intro i
  have hi := Host.reduce_andi_all _ _ _ _ j e i
  change IntOp.andi (IntOp.cmpi .sge (a i) 0#32) (IntOp.cmpi .slt (a i) 100000#32) = 1#1 at hi
  obtain ⟨h0, h1⟩ := IntOp.andi_eq_one.1 hi
  exact toNat_lt_of_signed _ h0 h1

/-- The precondition's last two conjuncts: every source id and every destination id is in [0, 100000). -/
theorem range_of_pre (a0 : FVec Ideal Cert.Pre_finite_inputs.S100000x32 .f32) (a1 : FVec Ideal Cert.Pre_finite_inputs.S3200000x6 .f32)
    (a2 a3 : IVec Cert.Pre_finite_inputs.S3200000 32) (a4 : FVec Ideal Cert.Pre_finite_inputs.S70x32 .f32) (a5 : FVec Ideal Cert.Pre_finite_inputs.S32 .f32)
    (a6 : FVec Ideal Cert.Pre_finite_inputs.S32x6 .f32) (a7 : FVec Ideal Cert.Pre_finite_inputs.S6 .f32) (a8 : FVec Ideal Cert.Pre_finite_inputs.S38x64 .f32)
    (a9 : FVec Ideal Cert.Pre_finite_inputs.S64 .f32) (a10 : FVec Ideal Cert.Pre_finite_inputs.S64x32 .f32) (a11 : FVec Ideal Cert.Pre_finite_inputs.S32 .f32)
    (h : Cert.Pre_finite_inputs.fn (F := Ideal) a0 a1 a2 a3 a4 a5 a6 a7 a8 a9 a10 a11 = (fun _ => 1#1)) :
    (∀ e, (a2 e).toNat < 100000) ∧ (∀ e, (a3 e).toNat < 100000) := by
  have e := congrFun h ValueIdx.ix0
  dsimp only [Cert.Pre_finite_inputs.fn, Cert.Pre_finite_inputs.fn_part1, Cert.Pre_finite_inputs.fn_part2,
    Cert.Pre_finite_inputs.fn_part3] at e
  change IntOp.andi (IntOp.andi _ _) _ = 1#1 at e
  obtain ⟨e12, e3⟩ := IntOp.andi_eq_one.1 e
  obtain ⟨-, e2⟩ := IntOp.andi_eq_one.1 e12
  exact ⟨range_of_all a2 _ e2, range_of_all a3 _ e3⟩

end Cert.KernelIdeal.Rows

end
-- ==== Proof.KernelHost.lean ====
/-
  The kernel's host operations around the region, read as terms.

  Before the region the host takes the node table's rows twice, by the destination ids and by the source ids: each take
  is the chain of operations that wraps the ids, gathers the rows, tests the wrapped indices against [0, 99999] and fills
  the rows that fail the test. Read at its result buffer, each chain is the take written as one term. After the region the
  host scatter-adds the node messages the region left in its last window's array, by destination id, into a zero table:
  read at the program's result, the tail is that scatter-add.

  The operations of a take are stated over references that carry the type of the tensor value they hold; contents move
  between a buffer's own type and the carried type, which are one type. Those moves cancel in pairs, and the few left at
  the arguments and at the result are identities.
-/
import proofs.«414284_j19662360281744_4_alg».proof.Proof.Gen.KernelIdeal.Frame
import proofs.«414284_j19662360281744_4_alg».proof.Proof.TakeDefs
import Idealize.ShloMosaic.PureOps.Ideal

set_option maxRecDepth 16384

noncomputable section

namespace Cert.KernelIdeal.HostOps

open Idealize.ShloMosaic Idealize.ShloMosaic.TcCoe Idealize.SL.Sem Cert.KernelIdeal Cert.KernelIdeal.Gen
open Idealize.ShloMosaic.StableHlo

variable (m : (ℓ : Loc nD τ sig) → Buf (Elt Ideal) ℓ)

/-- Contents moved to a typed reference's buffer and back are the contents. -/
theorem ofBuf_toBuf {sig : RefSig} {Val : EltTy → Type} {T : BufTy} (x : StableHlo.TRef sig T) (v : T.Contents Val) :
    x.ofBuf (x.toBuf v) = v := by
  obtain ⟨r, rfl, _, _⟩ := x
  rfl

/-- Contents moved to a typed reference's buffer are the buffer's contents they are equal to across the two types
    (the reference's own type and the type it carries are one type). -/
theorem toBuf_eq_of_heq {sig : RefSig} {Val : EltTy → Type} {T : BufTy} (x : StableHlo.TRef sig T) (v : T.Contents Val)
    (w : x.ref.ty.Contents Val) (h : HEq v w) : x.toBuf v = w := by
  obtain ⟨r, rfl, _, _⟩ := x
  exact eq_of_heq h

set_option maxHeartbeats 1000000 in
/-- The region finds, as its first operand, the take of the node table by the destination ids. -/
theorem V_xdst (c : Dev nD) : V m c main_v0 = Cert.KernelIdeal.Rows.takeRows (F := Ideal) (m ((c : Thread nD τ).loc main_arg0)) (m ((c : Thread nD τ).loc main_arg3)) := by
  dsimp only [V, V0]
  simp only [hostOps0, hostOps0_1, List.flatten_cons, List.flatten_nil, List.append_nil, List.cons_append, List.nil_append]
  after_results_simp
  -- the moves between a buffer's type and the carried type cancel in pairs
  simp only [ofBuf_toBuf]
  -- the two arguments are read at their own buffers
  have ei : (StableHlo.TRef.of main_arg3 : StableHlo.TRef sig ⟨S3200000, .i32⟩).ofBuf (m (c, Proc.devRef .tc main_arg3)) = m ((c : Thread nD τ).loc main_arg3) := rfl
  have e0 : (StableHlo.TRef.of main_arg0 : StableHlo.TRef sig ⟨S100000x32, .f32⟩).ofBuf (m (c, Proc.devRef .tc main_arg0)) = m ((c : Thread nD τ).loc main_arg0) := rfl
  rw [ei, e0]
  -- what is left is the take, operation by operation
  refine toBuf_eq_of_heq _ _ _ (heq_of_eq ?_)
  rfl

set_option maxHeartbeats 1000000 in
/-- The region finds, as its second operand, the take of the node table by the source ids. -/
theorem V_xsrc (c : Dev nD) : V m c main_v1 = Cert.KernelIdeal.Rows.takeRows (F := Ideal) (m ((c : Thread nD τ).loc main_arg0)) (m ((c : Thread nD τ).loc main_arg2)) := by
  dsimp only [V, V0]
  simp only [hostOps0, hostOps0_1, List.flatten_cons, List.flatten_nil, List.append_nil, List.cons_append, List.nil_append]
  after_results_simp
  simp only [ofBuf_toBuf]
  have ei : (StableHlo.TRef.of main_arg2 : StableHlo.TRef sig ⟨S3200000, .i32⟩).ofBuf (m (c, Proc.devRef .tc main_arg2)) = m ((c : Thread nD τ).loc main_arg2) := rfl
  have e0 : (StableHlo.TRef.of main_arg0 : StableHlo.TRef sig ⟨S100000x32, .f32⟩).ofBuf (m (c, Proc.devRef .tc main_arg0)) = m ((c : Thread nD τ).loc main_arg0) := rfl
  rw [ei, e0]
  refine toBuf_eq_of_heq _ _ _ (heq_of_eq ?_)
  rfl

set_option maxHeartbeats 1000000 in
/-- The program's first result: the node messages the region left in window 12's array, scatter-added by destination id
    into a zero table. -/
theorem tail_nm (c : Dev nD) :
    Pipeline.afterTail₀ cfgs (dats m) 0 (V0 m) [hostOps1] c main_v5
      = Host.scatterAdd scatter_S100000x32_S3200000x1_S3200000x32_1_0_0_1
          (broadcastInDim S100000x32 ![] bcast_S_S100000x32 (constant (F := Ideal) S_ .f32 0x00000000#32))
          (broadcastInDim S3200000x1 ![0] bcast_S3200000_S3200000x1_0 (m ((c : Thread nD τ).loc main_arg3)))
          ((dats m 0 c).arrAt 12 cfg0.N) := by
  unfold Pipeline.afterTail₀
  simp only [hostOps1, List.flatten_cons, List.flatten_nil, List.append_nil]
  after_results
  -- the destination ids are no array of the pipeline: the region leaves them as it found them, as launched
  rw [Pipeline.withArrays_of_ne _ c (V0 m c) _ main_arg3 (by exact (by decide : ∀ w, Pipeline.arrRef spec0 w ≠ main_arg3))]
  rw [show V0 m c (Proc.devRef .tc main_arg3) = m ((c : Thread nD τ).loc main_arg3) from V_main_arg3 m c]
  -- the node messages are window 12's array
  have h12 := Pipeline.withArrays_arr spec0 launch0.win.arr_inj c (V0 m c) (fun w => (dats m 0 c).arrAt w cfg0.N) 12
  rw [h12]

end Cert.KernelIdeal.HostOps

end
-- ==== Proof.KernelRun.lean ====
/-
  The kernel program's run, with its two results named.

  The frame run leaves every window's array at what the grid points wrote back and every other buffer at what the
  host operations after the region leave. Window 11's array is the second result: the edge messages. The first result
  is the scatter-add, by destination id into a zero table, of window 12's array: the node messages. The region's two
  gathered operands are the host's take of the node table by destination and by source id, which for ids in
  [0, 100000) is the plain gather.
-/
import proofs.«414284_j19662360281744_4_alg».proof.Proof.KernelFlush
import proofs.«414284_j19662360281744_4_alg».proof.Proof.TakeRows
import proofs.«414284_j19662360281744_4_alg».proof.Proof.KernelHost

noncomputable section

namespace Cert.KernelIdeal.Run

open Idealize.ShloMosaic Idealize.ShloMosaic.TcCoe Idealize.SL.Sem
open Cert.KernelIdeal Cert.KernelIdeal.Gen Cert.KernelIdeal.Blocks

variable (m : (ℓ : Loc nD τ sig) → Buf (Elt Ideal) ℓ)

/-- The gathered destination rows [E, 32]. -/
abbrev A0 (c : Dev nD) : FVec Ideal S3200000x32 .f32 :=
  Cert.KernelIdeal.Rows.rowsAt (F := Ideal) (m ((c.tc : Thread nD τ).loc main_arg0)) (m ((c.tc : Thread nD τ).loc main_arg3))
/-- The gathered source rows [E, 32]. -/
abbrev A1 (c : Dev nD) : FVec Ideal S3200000x32 .f32 :=
  Cert.KernelIdeal.Rows.rowsAt (F := Ideal) (m ((c.tc : Thread nD τ).loc main_arg0)) (m ((c.tc : Thread nD τ).loc main_arg2))
/-- The edge messages [E, 6]. -/
abbrev EM (c : Dev nD) : FVec Ideal S3200000x6 .f32 :=
  Cert.Mpn.edgeArr (A0 m c) (A1 m c) (m ((c.tc : Thread nD τ).loc main_arg1)) (m ((c.tc : Thread nD τ).loc main_arg4))
    (m ((c.tc : Thread nD τ).loc main_arg5)) (m ((c.tc : Thread nD τ).loc main_arg6)) (m ((c.tc : Thread nD τ).loc main_arg7))
/-- The node messages [E, 32]. -/
abbrev NM (c : Dev nD) : FVec Ideal S3200000x32 .f32 :=
  Cert.Mpn.nodeArr (A0 m c) (EM m c) (m ((c.tc : Thread nD τ).loc main_arg8)) (m ((c.tc : Thread nD τ).loc main_arg9))
    (m ((c.tc : Thread nD τ).loc main_arg10)) (m ((c.tc : Thread nD τ).loc main_arg11))

/-- Equal arrays have equal edge messages. -/
theorem edgeArr_congr {X0 X0' X1 X1' : S3200000x32.Idx → EReal} {X2 X2' : S3200000x6.Idx → EReal} {X3 X3' : S70x32.Idx → EReal}
    {X4 X4' : S32.Idx → EReal} {X5 X5' : S32x6.Idx → EReal} {X6 X6' : S6.Idx → EReal}
    (h0 : X0 = X0') (h1 : X1 = X1') (h2 : X2 = X2') (h3 : X3 = X3') (h4 : X4 = X4') (h5 : X5 = X5') (h6 : X6 = X6') :
    Cert.Mpn.edgeArr X0 X1 X2 X3 X4 X5 X6 = Cert.Mpn.edgeArr X0' X1' X2' X3' X4' X5' X6' := by
  subst h0 h1 h2 h3 h4 h5 h6; rfl

/-- Equal arrays have equal node messages. -/
theorem nodeArr_congr {X0 X0' : S3200000x32.Idx → EReal} {E E' : S3200000x6.Idx → EReal} {X7 X7' : S38x64.Idx → EReal}
    {X8 X8' : S64.Idx → EReal} {X9 X9' : S64x32.Idx → EReal} {X10 X10' : S32.Idx → EReal}
    (h0 : X0 = X0') (he : E = E') (h7 : X7 = X7') (h8 : X8 = X8') (h9 : X9 = X9') (h10 : X10 = X10') :
    Cert.Mpn.nodeArr X0 E X7 X8 X9 X10 = Cert.Mpn.nodeArr X0' E' X7' X8' X9' X10' := by
  subst h0 he h7 h8 h9 h10; rfl

section Ranges

variable (c : Dev nD)
  (hsrc : ∀ e : S3200000.Idx, ((m ((c.tc : Thread nD τ).loc main_arg2) : IVec S3200000 32) e).toNat < 100000)
  (hdst : ∀ e : S3200000.Idx, ((m ((c.tc : Thread nD τ).loc main_arg3) : IVec S3200000 32) e).toNat < 100000)

include hdst in
/-- With destination ids in range the region's first operand is the gathered destination rows. -/
theorem xdst_eq : V m c (Pipeline.arrRef spec0 0) = A0 m c :=
  (Cert.KernelIdeal.HostOps.V_xdst m c).trans (Cert.KernelIdeal.Rows.takeRows_eq _ _ hdst)

include hsrc in
/-- With source ids in range its second operand is the gathered source rows. -/
theorem xsrc_eq : V m c (Pipeline.arrRef spec0 1) = A1 m c :=
  (Cert.KernelIdeal.HostOps.V_xsrc m c).trans (Cert.KernelIdeal.Rows.takeRows_eq _ _ hsrc)

include hsrc hdst in
/-- The edge messages of what the region finds are the edge messages of the arguments. -/
theorem edgeOut_eq : EdgeOut m c = EM m c :=
  edgeArr_congr (xdst_eq m c hdst) (xsrc_eq m c hsrc) (V_main_arg1 m c) (V_main_arg4 m c) (V_main_arg5 m c) (V_main_arg6 m c) (V_main_arg7 m c)

include hsrc hdst in
/-- Likewise the node messages. -/
theorem nodeOut_eq : NodeOut m c = NM m c :=
  nodeArr_congr (xdst_eq m c hdst) (edgeOut_eq m c hsrc hdst) (V_main_arg8 m c) (V_main_arg9 m c) (V_main_arg10 m c) (V_main_arg11 m c)

end Ranges

/-- The frame run's post, named. -/
abbrev Post (r : PUnit × MemSt nD τ sig (Elt Ideal)) : Prop :=
  Pipeline.FramePost cfgs (dats m) 0 (Pipeline.afterTail₀ cfgs (dats m) 0 (V0 m) [hostOps1]) r

/-- The second result: window 11's array after the run. -/
theorem res_em (r : PUnit × MemSt nD τ sig (Elt Ideal)) (h : Post m r) (c : Dev nD)
    (hsrc : ∀ e : S3200000.Idx, ((m ((c.tc : Thread nD τ).loc main_arg2) : IVec S3200000 32) e).toNat < 100000)
    (hdst : ∀ e : S3200000.Idx, ((m ((c.tc : Thread nD τ).loc main_arg3) : IVec S3200000 32) e).toNat < 100000) :
    r.2.mem ((c.tc : Thread nD τ).loc main_v2_0) = EM m c := by
  have h11 : r.2.mem ((c.tc : Thread nD τ).loc main_v2_0) = (dats m 0 c).arrAt 11 cfg0.N := (h c).1 11
  exact h11.trans ((final11 m c).trans (edgeOut_eq m c hsrc hdst))

/-- The first result: the scatter-add of window 12's array after the run. -/
theorem res_nm (r : PUnit × MemSt nD τ sig (Elt Ideal)) (h : Post m r) (c : Dev nD)
    (hsrc : ∀ e : S3200000.Idx, ((m ((c.tc : Thread nD τ).loc main_arg2) : IVec S3200000 32) e).toNat < 100000)
    (hdst : ∀ e : S3200000.Idx, ((m ((c.tc : Thread nD τ).loc main_arg3) : IVec S3200000 32) e).toNat < 100000) :
    r.2.mem ((c.tc : Thread nD τ).loc main_v5)
      = Host.scatterAdd scatter_S100000x32_S3200000x1_S3200000x32_1_0_0_1
          (broadcastInDim S100000x32 ![] Facts₀.bcast_S_S100000x32 (constant (F := Ideal) S_ .f32 0x00000000#32))
          (broadcastInDim S3200000x1 ![0] Facts₀.bcast_S3200000_S3200000x1_0 (m ((c.tc : Thread nD τ).loc main_arg3)))
          (NM m c) := by
  have h5 : r.2.mem ((c.tc : Thread nD τ).loc main_v5) = Pipeline.afterTail₀ cfgs (dats m) 0 (V0 m) [hostOps1] c main_v5 :=
    (h c).2 main_v5 (Pipeline.mem_restRefs_of main_v5 (by decide) (by decide))
  have h12 : (dats m 0 c).arrAt 12 cfg0.N = NM m c := (final12 m c).trans (nodeOut_eq m c hsrc hdst)
  rw [h5, Cert.KernelIdeal.HostOps.tail_nm m c, h12]

/-- The argument arrays after the run: a staged one is its window's array, which an input window leaves as the region
    found it; the others no host operation writes. -/
theorem res_args (r : PUnit × MemSt nD τ sig (Elt Ideal)) (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (W_main_arg0 m (dats m) c),
    ((h c).1 2).trans (((dats m 0 c).arrAt_in 2 rfl _).trans ((A_eq m c 2).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).1 3).trans (((dats m 0 c).arrAt_in 3 rfl _).trans ((A_eq m c 3).trans (V_main_arg4 m c))),
    ((h c).1 4).trans (((dats m 0 c).arrAt_in 4 rfl _).trans ((A_eq m c 4).trans (V_main_arg5 m c))),
    ((h c).1 5).trans (((dats m 0 c).arrAt_in 5 rfl _).trans ((A_eq m c 5).trans (V_main_arg6 m c))),
    ((h c).1 6).trans (((dats m 0 c).arrAt_in 6 rfl _).trans ((A_eq m c 6).trans (V_main_arg7 m c))),
    ((h c).1 7).trans (((dats m 0 c).arrAt_in 7 rfl _).trans ((A_eq m c 7).trans (V_main_arg8 m c))),
    ((h c).1 8).trans (((dats m 0 c).arrAt_in 8 rfl _).trans ((A_eq m c 8).trans (V_main_arg9 m c))),
    ((h c).1 9).trans (((dats m 0 c).arrAt_in 9 rfl _).trans ((A_eq m c 9).trans (V_main_arg10 m c))),
    ((h c).1 10).trans (((dats m 0 c).arrAt_in 10 rfl _).trans ((A_eq m c 10).trans (V_main_arg11 m c)))⟩

/-- With every source and destination id in [0, 100000): every fair execution of the kernel program ends with the
    node-message sums and the edge messages at the specification's terms, the arguments unchanged. -/
theorem run_spec (ρ : Dev nD → PrngReg)
    (hsrc : ∀ (c : Dev nD) (e : S3200000.Idx), ((m ((c.tc : Thread nD τ).loc main_arg2) : IVec S3200000 32) e).toNat < 100000)
    (hdst : ∀ (c : Dev nD) (e : S3200000.Idx), ((m ((c.tc : Thread nD τ).loc main_arg3) : IVec S3200000 32) e).toNat < 100000) :
    θ_run defs (onTc (τ := τ) (main (F := Ideal))) ⟨m, fun _ => 0, ρ⟩ fun r => ∀ c : Dev nD,
      r.2.mem ((c.tc : Thread nD τ).loc main_v5)
          = Host.scatterAdd scatter_S100000x32_S3200000x1_S3200000x32_1_0_0_1
              (broadcastInDim S100000x32 ![] Facts₀.bcast_S_S100000x32 (constant (F := Ideal) S_ .f32 0x00000000#32))
              (broadcastInDim S3200000x1 ![0] Facts₀.bcast_S3200000_S3200000x1_0 (m ((c.tc : Thread nD τ).loc main_arg3)))
              (NM m c)
      ∧ r.2.mem ((c.tc : Thread nD τ).loc main_v2_0) = EM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨res_nm m r h c (hsrc c) (hdst c), res_em m r h c (hsrc c) (hdst c), res_args m r h c⟩)
    (run_main m ρ)

end Cert.KernelIdeal.Run

end
-- ==== Proof.RefValue.lean ====
/-
  The reference's two message arrays are the specification's.

  The reference computes the edge messages as relu (relu ([x_dst | x_src | x_edge] · W₁ + b₁) · W₂ + b₂) and the node
  messages as relu (relu ([x_dst | edge_msg] · V₁ + c₁) · V₂ + c₂), with whole matrix products over concatenated inputs.
  Read at an entry (e, q), every operation is elementwise or a finite sum: a relu is the maximum with zero, a bias is
  read at the column, a product is the sum over the shared axis. The one real step is the product with a concatenated
  input: its sum over all 70 (or 38) columns splits into the sums over the column blocks, and in each block the
  concatenation reads the piece that block came from. The two gathered row arrays stay opaque throughout.
-/
import proofs.«414284_j19662360281744_4_alg».proof.Proof.Gen.ReferenceIdeal.Run
import proofs.«414284_j19662360281744_4_alg».proof.Proof.Gen.ReferenceIdeal.Read
import proofs.«414284_j19662360281744_4_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Mpn

/-! ## The two concatenations, column by column -/

section Cat
variable {α : Type}

/-- Columns 0–31 of [x_dst | x_src | x_edge] are the destination rows. -/
theorem cat3_a (XD XS : S3200000x32.Idx → α) (XE : S3200000x6.Idx → α) (e : Fin 3200000) (a : Fin 32) :
    concatenate S3200000x70 1 [⟨S3200000x32, XD⟩, ⟨S3200000x32, XS⟩, ⟨S3200000x6, XE⟩]
      concatenates_S3200000x32_S3200000x32_S3200000x6_S3200000x70_d1 (ix2 e (r70a a)) = XD (ix2 e a) := by
  refine concatenate_apply_piece 1 _ _ (ix2 e (r70a a)) 0 (by simp) S3200000x32 XD rfl rfl 0 rfl (ix2 e a) ?_ ?_
  · intro b hb
    match b with
    | ⟨0, _⟩ => rfl
    | ⟨1, _⟩ => exact absurd rfl hb
  · exact Nat.zero_add _

/-- Columns 32–63 are the source rows. -/
theorem cat3_b (XD XS : S3200000x32.Idx → α) (XE : S3200000x6.Idx → α) (e : Fin 3200000) (a : Fin 32) :
    concatenate S3200000x70 1 [⟨S3200000x32, XD⟩, ⟨S3200000x32, XS⟩, ⟨S3200000x6, XE⟩]
      concatenates_S3200000x32_S3200000x32_S3200000x6_S3200000x70_d1 (ix2 e (r70b a)) = XS (ix2 e a) := by
  refine concatenate_apply_piece 1 _ _ (ix2 e (r70b a)) 1 (by simp) S3200000x32 XS rfl rfl 32 rfl (ix2 e a) ?_ ?_
  · intro b hb
    match b with
    | ⟨0, _⟩ => rfl
    | ⟨1, _⟩ => exact absurd rfl hb
  · rfl

/-- Columns 64–69 are the edge features. -/
theorem cat3_c (XD XS : S3200000x32.Idx → α) (XE : S3200000x6.Idx → α) (e : Fin 3200000) (a : Fin 6) :
    concatenate S3200000x70 1 [⟨S3200000x32, XD⟩, ⟨S3200000x32, XS⟩, ⟨S3200000x6, XE⟩]
      concatenates_S3200000x32_S3200000x32_S3200000x6_S3200000x70_d1 (ix2 e (r70c a)) = XE (ix2 e a) := by
  refine concatenate_apply_piece 1 _ _ (ix2 e (r70c a)) 2 (by simp) S3200000x6 XE rfl rfl 64 rfl (ix2 e a) ?_ ?_
  · intro b hb
    match b with
    | ⟨0, _⟩ => rfl
    | ⟨1, _⟩ => exact absurd rfl hb
  · rfl

/-- Columns 0–31 of [x_dst | edge_msg] are the destination rows. -/
theorem cat2_a (XD : S3200000x32.Idx → α) (EM : S3200000x6.Idx → α) (e : Fin 3200000) (a : Fin 32) :
    concatenate S3200000x38 1 [⟨S3200000x32, XD⟩, ⟨S3200000x6, EM⟩]
      concatenates_S3200000x32_S3200000x6_S3200000x38_d1 (ix2 e (r38a a)) = XD (ix2 e a) := by
  refine concatenate_pair_apply_left 1 XD EM _ (ix2 e (r38a a)) rfl (ix2 e a) ?_
  intro b
  match b with
  | ⟨0, _⟩ => rfl
  | ⟨1, _⟩ => rfl

/-- Columns 32–37 are the edge messages. -/
theorem cat2_b (XD : S3200000x32.Idx → α) (EM : S3200000x6.Idx → α) (e : Fin 3200000) (a : Fin 6) :
    concatenate S3200000x38 1 [⟨S3200000x32, XD⟩, ⟨S3200000x6, EM⟩]
      concatenates_S3200000x32_S3200000x6_S3200000x38_d1 (ix2 e (r38b a)) = EM (ix2 e a) := by
  refine concatenate_pair_apply_right 1 XD EM _ (ix2 e (r38b a)) rfl rfl (ix2 e a) ?_ ?_
  · intro b hb
    match b with
    | ⟨0, _⟩ => rfl
    | ⟨1, _⟩ => exact absurd rfl hb
  · show a.val + 32 = 32 + a.val
    omega

end Cat

/-! ## The index arithmetic of the products and the bias broadcasts, at an index given by its coordinates -/

theorem lidx15 (e : Fin 3200000) (k : Fin 32) (c : Fin 70) : lidx_main_v15 (ix2 e k) c = ix2 e c :=
  funext fun a => Fin.ext (by match a with | ⟨0, _⟩ => rfl | ⟨1, _⟩ => rfl)
theorem ridx15 (e : Fin 3200000) (k : Fin 32) (c : Fin 70) : ridx_main_v15 (ix2 e k) c = ix2 c k :=
  funext fun a => Fin.ext (by match a with | ⟨0, _⟩ => rfl | ⟨1, _⟩ => rfl)
theorem bias17 (e : Fin 3200000) (k : Fin 32) : idx_main_v16 (idx_main_v17 (ix2 e k)) = ix1 k :=
  funext fun a => Fin.ext (by match a with | ⟨0, _⟩ => rfl)
theorem lidx20 (e : Fin 3200000) (q : Fin 6) (k : Fin 32) : lidx_main_v20 (ix2 e q) k = ix2 e k :=
  funext fun a => Fin.ext (by match a with | ⟨0, _⟩ => rfl | ⟨1, _⟩ => rfl)
theorem ridx20 (e : Fin 3200000) (q : Fin 6) (k : Fin 32) : ridx_main_v20 (ix2 e q) k = ix2 k q :=
  funext fun a => Fin.ext (by match a with | ⟨0, _⟩ => rfl | ⟨1, _⟩ => rfl)
theorem bias22 (e : Fin 3200000) (q : Fin 6) : idx_main_v21 (idx_main_v22 (ix2 e q)) = ix1 q :=
  funext fun a => Fin.ext (by match a with | ⟨0, _⟩ => rfl)
theorem lidx26 (e : Fin 3200000) (k : Fin 64) (c : Fin 38) : lidx_main_v26 (ix2 e k) c = ix2 e c :=
  funext fun a => Fin.ext (by match a with | ⟨0, _⟩ => rfl | ⟨1, _⟩ => rfl)
theorem ridx26 (e : Fin 3200000) (k : Fin 64) (c : Fin 38) : ridx_main_v26 (ix2 e k) c = ix2 c k :=
  funext fun a => Fin.ext (by match a with | ⟨0, _⟩ => rfl | ⟨1, _⟩ => rfl)
theorem bias28 (e : Fin 3200000) (k : Fin 64) : idx_main_v27 (idx_main_v28 (ix2 e k)) = ix1 k :=
  funext fun a => Fin.ext (by match a with | ⟨0, _⟩ => rfl)
theorem lidx31 (e : Fin 3200000) (q : Fin 32) (k : Fin 64) : lidx_main_v31 (ix2 e q) k = ix2 e k :=
  funext fun a => Fin.ext (by match a with | ⟨0, _⟩ => rfl | ⟨1, _⟩ => rfl)
theorem ridx31 (e : Fin 3200000) (q : Fin 32) (k : Fin 64) : ridx_main_v31 (ix2 e q) k = ix2 k q :=
  funext fun a => Fin.ext (by match a with | ⟨0, _⟩ => rfl | ⟨1, _⟩ => rfl)
theorem bias33 (e : Fin 3200000) (q : Fin 32) : idx_main_v32 (idx_main_v33 (ix2 e q)) = ix1 q :=
  funext fun a => Fin.ext (by match a with | ⟨0, _⟩ => rfl)

/-! ## The edge encoder -/

/-- The product of the concatenation [x_dst | x_src | x_edge] with the first weight matrix, at (e, k): the three
    blocks' sums. -/
theorem dot70 (XD XS : S3200000x32.Idx → EReal) (XE : S3200000x6.Idx → EReal) (W : S70x32.Idx → EReal)
    (e : Fin 3200000) (k : Fin 32) :
    (∑ c : Fin 70, concatenate S3200000x70 1 [⟨S3200000x32, XD⟩, ⟨S3200000x32, XS⟩, ⟨S3200000x6, XE⟩]
        concatenates_S3200000x32_S3200000x32_S3200000x6_S3200000x70_d1 (ix2 e c) * W (ix2 c k))
      = ((∑ a : Fin 32, XD (ix2 e a) * W (ix2 (r70a a) k)) + (∑ a : Fin 32, XS (ix2 e a) * W (ix2 (r70b a) k)))
        + (∑ a : Fin 6, XE (ix2 e a) * W (ix2 (r70c a) k)) := by
  rw [sum70]
  simp only [cat3_a, cat3_b, cat3_c]

/-- The edge encoder's hidden layer at (e, k). -/
theorem hidden_row (x0 : (⟨S100000x32, .f32⟩ : BufTy).Contents (Elt Ideal)) (x1 : (⟨S3200000x6, .f32⟩ : BufTy).Contents (Elt Ideal))
    (x2 x3 : (⟨S3200000, .i32⟩ : BufTy).Contents (Elt Ideal)) (x4 : (⟨S70x32, .f32⟩ : BufTy).Contents (Elt Ideal))
    (x5 : (⟨S32, .f32⟩ : BufTy).Contents (Elt Ideal))
    (e : Fin 3200000) (k : Fin 32) :
    val_main_v19 (F := Ideal) x0 x1 x2 x3 x4 x5 (ix2 e k)
      = edgeHidden (fun a => val_main_v6 (F := Ideal) x0 x3 (ix2 e a)) (fun a => val_main_v13 (F := Ideal) x0 x2 (ix2 e a))
          (fun a => x1 (ix2 e a)) (fun a k => x4 (ix2 a k)) (fun k => x5 (ix1 k)) k := by
  rw [val_main_v19_apply, val_main_v18_apply, val_main_v15_apply, val_main_v17_apply, val_main_v16_apply,
    val_main_call0_v0_apply, val_main_call0_cst_apply, bias17]
  simp only [lidx15, ridx15]
  unfold val_main_v14
  rw [dot70]
  simp only [Ideal.maximumf_def, Ideal.addf_def, Ideal.ofBits_def, Ideal.ofBits_zero_f32]
  rfl

/-- The edge message at (e, q). -/
theorem edge_row (x0 : (⟨S100000x32, .f32⟩ : BufTy).Contents (Elt Ideal)) (x1 : (⟨S3200000x6, .f32⟩ : BufTy).Contents (Elt Ideal))
    (x2 x3 : (⟨S3200000, .i32⟩ : BufTy).Contents (Elt Ideal)) (x4 : (⟨S70x32, .f32⟩ : BufTy).Contents (Elt Ideal))
    (x5 : (⟨S32, .f32⟩ : BufTy).Contents (Elt Ideal)) (x6 : (⟨S32x6, .f32⟩ : BufTy).Contents (Elt Ideal))
    (x7 : (⟨S6, .f32⟩ : BufTy).Contents (Elt Ideal))
    (e : Fin 3200000) (q : Fin 6) :
    val_main_v24 (F := Ideal) x0 x1 x2 x3 x4 x5 x6 x7 (ix2 e q)
      = edgeRow (fun a => val_main_v6 (F := Ideal) x0 x3 (ix2 e a)) (fun a => val_main_v13 (F := Ideal) x0 x2 (ix2 e a))
          (fun a => x1 (ix2 e a)) (fun a k => x4 (ix2 a k)) (fun k => x5 (ix1 k)) (fun k q => x6 (ix2 k q))
          (fun q => x7 (ix1 q)) q := by
  rw [val_main_v24_apply, val_main_v23_apply, val_main_v20_apply, val_main_v22_apply, val_main_v21_apply,
    val_main_call1_v0_apply, val_main_call1_cst_apply, bias22]
  simp only [lidx20, ridx20, hidden_row]
  simp only [Ideal.maximumf_def, Ideal.addf_def, Ideal.ofBits_def, Ideal.ofBits_zero_f32]
  rfl

/-- The reference's edge messages: the specification's array of the two gathered row arrays and the edge features. -/
theorem edge_eq (x0 : (⟨S100000x32, .f32⟩ : BufTy).Contents (Elt Ideal)) (x1 : (⟨S3200000x6, .f32⟩ : BufTy).Contents (Elt Ideal))
    (x2 x3 : (⟨S3200000, .i32⟩ : BufTy).Contents (Elt Ideal)) (x4 : (⟨S70x32, .f32⟩ : BufTy).Contents (Elt Ideal))
    (x5 : (⟨S32, .f32⟩ : BufTy).Contents (Elt Ideal)) (x6 : (⟨S32x6, .f32⟩ : BufTy).Contents (Elt Ideal))
    (x7 : (⟨S6, .f32⟩ : BufTy).Contents (Elt Ideal)) :
    val_main_v24 (F := Ideal) x0 x1 x2 x3 x4 x5 x6 x7
      = Cert.Mpn.edgeArr (val_main_v6 (F := Ideal) x0 x3) (val_main_v13 (F := Ideal) x0 x2) x1 x4 x5 x6 x7 := by
  funext i
  obtain ⟨e, q, rfl⟩ : ∃ (e : Fin 3200000) (q : Fin 6), i = ix2 e q := ⟨i 0, i 1, eq_ix2 i⟩
  rw [edge_row]
  rfl

/-! ## The node encoder -/

/-- The product of the concatenation [x_dst | edge_msg] with the node encoder's first weight matrix, at (e, k): the two
    blocks' sums. -/
theorem dot38 (XD : S3200000x32.Idx → EReal) (EM : S3200000x6.Idx → EReal) (V : S38x64.Idx → EReal)
    (e : Fin 3200000) (k : Fin 64) :
    (∑ c : Fin 38, concatenate S3200000x38 1 [⟨S3200000x32, XD⟩, ⟨S3200000x6, EM⟩]
        concatenates_S3200000x32_S3200000x6_S3200000x38_d1 (ix2 e c) * V (ix2 c k))
      = (∑ a : Fin 32, XD (ix2 e a) * V (ix2 (r38a a) k)) + (∑ a : Fin 6, EM (ix2 e a) * V (ix2 (r38b a) k)) := by
  rw [sum38]
  simp only [cat2_a, cat2_b]

/-- The node encoder's hidden layer at (e, k). -/
theorem node_hidden_row (x0 : (⟨S100000x32, .f32⟩ : BufTy).Contents (Elt Ideal)) (x1 : (⟨S3200000x6, .f32⟩ : BufTy).Contents (Elt Ideal))
    (x2 x3 : (⟨S3200000, .i32⟩ : BufTy).Contents (Elt Ideal)) (x4 : (⟨S70x32, .f32⟩ : BufTy).Contents (Elt Ideal))
    (x5 : (⟨S32, .f32⟩ : BufTy).Contents (Elt Ideal)) (x6 : (⟨S32x6, .f32⟩ : BufTy).Contents (Elt Ideal))
    (x7 : (⟨S6, .f32⟩ : BufTy).Contents (Elt Ideal))
    (x8 : (⟨S38x64, .f32⟩ : BufTy).Contents (Elt Ideal)) (x9 : (⟨S64, .f32⟩ : BufTy).Contents (Elt Ideal))
    (e : Fin 3200000) (k : Fin 64) :
    val_main_v30 (F := Ideal) x0 x1 x2 x3 x4 x5 x6 x7 x8 x9 (ix2 e k)
      = nodeHidden (fun a => val_main_v6 (F := Ideal) x0 x3 (ix2 e a))
          (fun a => val_main_v24 (F := Ideal) x0 x1 x2 x3 x4 x5 x6 x7 (ix2 e a))
          (fun a k => x8 (ix2 a k)) (fun k => x9 (ix1 k)) k := by
  rw [val_main_v30_apply, val_main_v29_apply, val_main_v26_apply, val_main_v28_apply, val_main_v27_apply,
    val_main_call2_v0_apply, val_main_call2_cst_apply, bias28]
  simp only [lidx26, ridx26]
  unfold val_main_v25
  rw [dot38]
  simp only [Ideal.maximumf_def, Ideal.addf_def, Ideal.ofBits_def, Ideal.ofBits_zero_f32]
  rfl

/-- The node message at (e, q). -/
theorem node_row (x0 : (⟨S100000x32, .f32⟩ : BufTy).Contents (Elt Ideal)) (x1 : (⟨S3200000x6, .f32⟩ : BufTy).Contents (Elt Ideal))
    (x2 x3 : (⟨S3200000, .i32⟩ : BufTy).Contents (Elt Ideal)) (x4 : (⟨S70x32, .f32⟩ : BufTy).Contents (Elt Ideal))
    (x5 : (⟨S32, .f32⟩ : BufTy).Contents (Elt Ideal)) (x6 : (⟨S32x6, .f32⟩ : BufTy).Contents (Elt Ideal))
    (x7 : (⟨S6, .f32⟩ : BufTy).Contents (Elt Ideal)) (x8 : (⟨S38x64, .f32⟩ : BufTy).Contents (Elt Ideal))
    (x9 : (⟨S64, .f32⟩ : BufTy).Contents (Elt Ideal)) (x10 : (⟨S64x32, .f32⟩ : BufTy).Contents (Elt Ideal))
    (x11 : (⟨S32, .f32⟩ : BufTy).Contents (Elt Ideal))
    (e : Fin 3200000) (q : Fin 32) :
    val_main_v35 (F := Ideal) x0 x1 x2 x3 x4 x5 x6 x7 x8 x9 x10 x11 (ix2 e q)
      = nodeRow (fun a => val_main_v6 (F := Ideal) x0 x3 (ix2 e a))
          (fun a => val_main_v24 (F := Ideal) x0 x1 x2 x3 x4 x5 x6 x7 (ix2 e a))
          (fun a k => x8 (ix2 a k)) (fun k => x9 (ix1 k)) (fun k q => x10 (ix2 k q)) (fun q => x11 (ix1 q)) q := by
  rw [val_main_v35_apply, val_main_v34_apply, val_main_v31_apply, val_main_v33_apply, val_main_v32_apply,
    val_main_call3_v0_apply, val_main_call3_cst_apply, bias33]
  simp only [lidx31, ridx31, node_hidden_row]
  simp only [Ideal.maximumf_def, Ideal.addf_def, Ideal.ofBits_def, Ideal.ofBits_zero_f32]
  rfl

/-- The reference's node messages: the specification's array of the gathered destination rows and the edge messages. -/
theorem node_eq (x0 : (⟨S100000x32, .f32⟩ : BufTy).Contents (Elt Ideal)) (x1 : (⟨S3200000x6, .f32⟩ : BufTy).Contents (Elt Ideal))
    (x2 x3 : (⟨S3200000, .i32⟩ : BufTy).Contents (Elt Ideal)) (x4 : (⟨S70x32, .f32⟩ : BufTy).Contents (Elt Ideal))
    (x5 : (⟨S32, .f32⟩ : BufTy).Contents (Elt Ideal)) (x6 : (⟨S32x6, .f32⟩ : BufTy).Contents (Elt Ideal))
    (x7 : (⟨S6, .f32⟩ : BufTy).Contents (Elt Ideal)) (x8 : (⟨S38x64, .f32⟩ : BufTy).Contents (Elt Ideal))
    (x9 : (⟨S64, .f32⟩ : BufTy).Contents (Elt Ideal)) (x10 : (⟨S64x32, .f32⟩ : BufTy).Contents (Elt Ideal))
    (x11 : (⟨S32, .f32⟩ : BufTy).Contents (Elt Ideal)) :
    val_main_v35 (F := Ideal) x0 x1 x2 x3 x4 x5 x6 x7 x8 x9 x10 x11
      = Cert.Mpn.nodeArr (val_main_v6 (F := Ideal) x0 x3) (val_main_v24 (F := Ideal) x0 x1 x2 x3 x4 x5 x6 x7) x8 x9 x10 x11 := by
  funext i
  obtain ⟨e, q, rfl⟩ : ∃ (e : Fin 3200000) (q : Fin 32), i = ix2 e q := ⟨i 0, i 1, eq_ix2 i⟩
  rw [node_row]
  rfl

end Cert.ReferenceIdeal.RefValue

end
-- ==== Proof.RefRun.lean ====
/-
  The reference's run, with its two results at the specification's terms.

  Both programs turn a node id into a row index the same way and gather the node table's rows with the same gather, so
  the reference's two gathered arrays are the kernel's host code's. With the two message arrays already identified
  with the specification's, the reference's results are: the edge messages of those gathered rows and the edge
  features, and the sums over each destination node of the node messages of the gathered destination rows and the
  edge messages.
-/
import proofs.«414284_j19662360281744_4_alg».proof.Proof.RefValue
import proofs.«414284_j19662360281744_4_alg».proof.Proof.TakeDefs

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

/-! ## The gathered rows -/

/-- The reference gathers the rows the kernel's host code gathers: the same index arithmetic, the same gather. -/
theorem rows_eq (x0 : (⟨S100000x32, .f32⟩ : BufTy).Contents (Elt Ideal)) (x3 : (⟨S3200000, .i32⟩ : BufTy).Contents (Elt Ideal)) :
    Cert.ReferenceIdeal.Read.val_main_v6 (F := Ideal) x0 x3 = Cert.KernelIdeal.Rows.rowsAt (F := Ideal) x0 x3 := rfl

/-- The same for the source ids. -/
theorem rows_eq' (x0 : (⟨S100000x32, .f32⟩ : BufTy).Contents (Elt Ideal)) (x2 : (⟨S3200000, .i32⟩ : BufTy).Contents (Elt Ideal)) :
    Cert.ReferenceIdeal.Read.val_main_v13 (F := Ideal) x0 x2 = Cert.KernelIdeal.Rows.rowsAt (F := Ideal) x0 x2 := rfl

/-! ## The run -/

/-- The gathered destination rows. -/
abbrev A0 (m : (ℓ : Loc nD τ sig) → Buf (Elt Ideal) ℓ) (c : Dev nD) : FVec Ideal S3200000x32 .f32 :=
  Cert.KernelIdeal.Rows.rowsAt (F := Ideal) (m ((c.tc : Thread nD τ).loc main_arg0)) (m ((c.tc : Thread nD τ).loc main_arg3))
/-- The gathered source rows. -/
abbrev A1 (m : (ℓ : Loc nD τ sig) → Buf (Elt Ideal) ℓ) (c : Dev nD) : FVec Ideal S3200000x32 .f32 :=
  Cert.KernelIdeal.Rows.rowsAt (F := Ideal) (m ((c.tc : Thread nD τ).loc main_arg0)) (m ((c.tc : Thread nD τ).loc main_arg2))
/-- The edge messages. -/
abbrev EM (m : (ℓ : Loc nD τ sig) → Buf (Elt Ideal) ℓ) (c : Dev nD) : FVec Ideal S3200000x6 .f32 :=
  Cert.Mpn.edgeArr (A0 m c) (A1 m c) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))

/-- Every fair execution of the reference ends with the node-message sums and the edge messages at the specification's terms, the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38)
          = Host.scatterAdd scatter_S100000x32_S3200000x1_S3200000x32_1_0_0_1
              (broadcastInDim S100000x32 ![] bcast_S_S100000x32 (constant (F := Ideal) S_ .f32 0x00000000#32))
              (broadcastInDim S3200000x1 ![0] bcast_S3200000_S3200000x1_0 (m ((c.tc : Thread nD τ).loc main_arg3)))
              (Cert.Mpn.nodeArr (A0 m c) (EM m c) (m ((c.tc : Thread nD τ).loc main_arg8)) (m ((c.tc : Thread nD τ).loc main_arg9)) (m ((c.tc : Thread nD τ).loc main_arg10)) (m ((c.tc : Thread nD τ).loc main_arg11)))
        ∧ r.2.mem ((c.tc : Thread nD τ).loc main_v24) = EM m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11) :=
  (θ_run defs _ _).mono (fun _ h c => ⟨(h c).1.trans (by
      refine (val_main_v38_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))).trans ?_
      unfold val_main_v38 val_main_v36 val_main_v37 val_main_cst
      rw [node_eq, edge_eq, rows_eq, rows_eq']),
    (h c).2.1.trans (by
      refine (val_main_v24_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))).trans ?_
      rw [edge_eq, rows_eq, rows_eq']),
    (h c).2.2⟩) (Cert.ReferenceIdeal.Value.run (F := Ideal) m ρ)

end Cert.ReferenceIdeal.RefValue

end
-- ==== Proof.lean ====
/-
  The certificate: the message-passing kernel's two results equal the reference's over the extended reals, when every
  source and destination id is in [0, 100000).

  Both programs gather the node table's rows at the edges' endpoints; the kernel's host code gathers with fill (a row
  whose index is out of range becomes not-a-number), which on ids in range is the plain gather the reference does. The
  kernel multiplies the destination rows, the source rows and the edge features by the row blocks of the first weight
  matrix and adds the three products; the reference multiplies their concatenation by the whole matrix: a product with
  a concatenated input is the sum of the products with the row blocks of the weight, since a finite sum of extended
  reals may be split and regrouped freely. Both then sum the node messages over each destination node with the same
  scatter-add. So both programs end with their results at the same two terms of the arguments, and with the arguments
  unchanged.
-/
import proofs.«414284_j19662360281744_4_alg».proof.Defs
import proofs.«414284_j19662360281744_4_alg».proof.Proof.Gen.Kernel
import proofs.«414284_j19662360281744_4_alg».proof.Proof.Gen.Kernel.Skeleton
import proofs.«414284_j19662360281744_4_alg».proof.Proof.Gen.Kernel.Launch
import proofs.«414284_j19662360281744_4_alg».proof.Proof.Gen.Kernel.Points
import proofs.«414284_j19662360281744_4_alg».proof.Proof.Gen.Kernel.Frame
import proofs.«414284_j19662360281744_4_alg».proof.Proof.Gen.KernelIdeal
import proofs.«414284_j19662360281744_4_alg».proof.Proof.Gen.KernelIdeal.Skeleton
import proofs.«414284_j19662360281744_4_alg».proof.Proof.Gen.KernelIdeal.Launch
import proofs.«414284_j19662360281744_4_alg».proof.Proof.Gen.KernelIdeal.Points
import proofs.«414284_j19662360281744_4_alg».proof.Proof.Gen.KernelIdeal.Frame
import proofs.«414284_j19662360281744_4_alg».proof.Proof.Gen.ReferenceIdeal
import proofs.«414284_j19662360281744_4_alg».proof.Proof.Gen.Pre_finite_inputs
import proofs.«414284_j19662360281744_4_alg».proof.Proof.KernelRun
import proofs.«414284_j19662360281744_4_alg».proof.Proof.RefRun
import proofs.«414284_j19662360281744_4_alg».proof.Proof.TakeRows
import Idealize.ShloMosaic.Adequacy
import Idealize.ShloMosaic.Init

noncomputable section

namespace Cert.Proof

open Idealize.ShloMosaic Idealize.SL.Sem Cert.Kernel

/-- The kernel program runs and leaves its arguments unchanged. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- So does the reference. -/
theorem frame_ri : Cert.frame_ReferenceIdeal := fun m ρ _ =>
  (θ_run Cert.ReferenceIdeal.defs _ _).mono (fun _ h c => (h c).2.2) (Cert.ReferenceIdeal.RefValue.run_spec m ρ)

/-- No operation of the kernel was rewritten for the reading over the extended reals. -/
theorem preserves : Cert.preserves_Kernel_KernelIdeal := trivial

/-- From memories that agree on the arguments, with every id in range, both programs end with the node-message sums
    and the edge messages at the specification's terms of the arguments: the same two arrays. -/
theorem algebraic : Cert.algebraic_KernelIdeal_ReferenceIdeal := by
  intro m ρ m' ρ' hpre hagree
  have hr := fun c : Dev Cert.KernelIdeal.nD => Cert.KernelIdeal.Rows.range_of_pre _ _ _ _ _ _ _ _ _ _ _ _ (hpre c)
  refine ⟨_, _, Cert.KernelIdeal.Run.run_spec m ρ (fun c => (hr c).1) (fun c => (hr c).2), ?_⟩
  refine (θ_run Cert.ReferenceIdeal.defs _ _).mono (fun _ h c => ⟨(h c).1.trans ?_, (h c).2.1.trans ?_, (h c).2.2⟩)
    (Cert.ReferenceIdeal.RefValue.run_spec m' ρ')
  · obtain ⟨e0, e1, e2, e3, e4, e5, e6, e7, e8, e9, e10, e11⟩ := hagree c
    dsimp only [Cert.ReferenceIdeal.RefValue.A0, Cert.ReferenceIdeal.RefValue.A1, Cert.ReferenceIdeal.RefValue.EM]
    rw [e0, e1, e2, e3, e4, e5, e6, e7, e8, e9, e10, e11]
    rfl
  · obtain ⟨e0, e1, e2, e3, e4, e5, e6, e7, -⟩ := hagree c
    dsimp only [Cert.ReferenceIdeal.RefValue.A0, Cert.ReferenceIdeal.RefValue.A1, Cert.ReferenceIdeal.RefValue.EM]
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
